-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x14x14x2048 : Shape := ⟨4, ![64, 14, 14, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S64x14x14x2048 : S_.BroadcastsInDim S64x14x14x2048 (![] : Fin 0 → Fin S64x14x14x2048.rank)
  reducesTo_S64x14x14x2048_S_d0_1_2_3 : S64x14x14x2048.ReducesTo [0, 1, 2, 3] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S8x1 .f32) (main_arg8 : FVec F S1 .f32) (main_v33 : IVec S_ 1) : IVec S_ 1 :=
  let main_v34 : FVec F S8x1 .f32 := Host.absf main_arg7
  let main_cst_12 : FVec F S_ .f32 := constant S_ .f32 0x7F800000#32
  let main_v35 : FVec F S8x1 .f32 := broadcastInDim S8x1 ![] bcast_S_S8x1 main_cst_12
  let main_v36 : IVec S8x1 1 := cmpf .olt main_v34 main_v35
  let main_c_13 : IVec S_ 1 := constantI S_ 1 1#1
  let main_v37 : IVec S_ 1 := (fun x v => Host.reduce IntOp.andi x v reducesTo_S8x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S16 .f32) (main_arg5 : FVec F S16x8 .f32) (main_arg6 : FVec F S8 .f32) (main_arg7 : FVec F S8x1 .f32) (main_arg8 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S64x14x14x2048 .f32) (main_arg1 : FVec F S2048x64 .f32) (main_arg2 : FVec F S64 .f32) (main_arg3 : FVec F S64x16 .f32) (main_arg4 : FVec F S16 .f32) (main_arg5 : FVec F S16x8 .f32) (main_arg6 : FVec F S8 .f32) (main_arg7 : FVec F S8x1 .f32) (main_arg8 : FVec F S1 .f32) : IVec S_ 1 :=
  let main_v0 : FVec F S64x14x14x2048 .f32 := Host.absf main_arg0
  let main_cst : FVec F S_ .f32 := constant S_ .f32 0x7F800000#32
  let main_v1 : FVec F S64x14x14x2048 .f32 := broadcastInDim S64x14x14x2048 ![] bcast_S_S64x14x14x2048 main_cst
  let main_v2 : IVec S64x14x14x2048 1 := cmpf .olt main_v0 main_v1
  let main_c : IVec S_ 1 := constantI S_ 1 1#1
  let main_v3 : IVec S_ 1 := (fun x v => Host.reduce IntOp.andi x v reducesTo_S64x14x14x2048_S_d0_1_2_3 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_arg8 main_v13 main_v16
-- ==== Kernel.lean ====
abbrev S64x14x14x2048 : Shape := ⟨4, ![64, 14, 14, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S64x196x2048 : Shape := ⟨3, ![64, 196, 2048]⟩
abbrev S1x64 : Shape := ⟨2, ![1, 64]⟩
abbrev S1x16 : Shape := ⟨2, ![1, 16]⟩
abbrev S1x8 : Shape := ⟨2, ![1, 8]⟩
abbrev S1x1 : Shape := ⟨2, ![1, 1]⟩
abbrev S64x1x2048 : Shape := ⟨3, ![64, 1, 2048]⟩
abbrev S1x196x2048 : Shape := ⟨3, ![1, 196, 2048]⟩
abbrev S1x1x2048 : Shape := ⟨3, ![1, 1, 2048]⟩
abbrev S196x2048 : Shape := ⟨2, ![196, 2048]⟩
abbrev S196x64 : Shape := ⟨2, ![196, 64]⟩
abbrev S196x16 : Shape := ⟨2, ![196, 16]⟩
abbrev S196x8 : Shape := ⟨2, ![196, 8]⟩
abbrev S196x1 : Shape := ⟨2, ![196, 1]⟩
abbrev S2048 : Shape := ⟨1, ![2048]⟩
abbrev S1x2048 : Shape := ⟨2, ![1, 2048]⟩
abbrev S64x2048 : Shape := ⟨2, ![64, 2048]⟩

abbrev nBuf : Space → Nat
  | .hbm => 20
  | .vmem => 12
  | .smem => 0
  | _ => 0

abbrev bufTy : (tb : Table) → Fin (tcTables nBuf tb) → BufTy
  | .hbm, ⟨0, _⟩ => ⟨S64x14x14x2048, .f32⟩
  | .hbm, ⟨1, _⟩ => ⟨S2048x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S64x196x2048, .f32⟩
  | .hbm, ⟨10, _⟩ => ⟨S2048x64, .bf16⟩
  | .hbm, ⟨11, _⟩ => ⟨S64x16, .bf16⟩
  | .hbm, ⟨12, _⟩ => ⟨S16x8, .bf16⟩
  | .hbm, ⟨13, _⟩ => ⟨S8x1, .bf16⟩
  | .hbm, ⟨14, _⟩ => ⟨S1x64, .f32⟩
  | .hbm, ⟨15, _⟩ => ⟨S1x16, .f32⟩
  | .hbm, ⟨16, _⟩ => ⟨S1x8, .f32⟩
  | .hbm, ⟨17, _⟩ => ⟨S1x1, .f32⟩
  | .hbm, ⟨18, _⟩ => ⟨S64x1x2048, .f32⟩
  | .hbm, ⟨19, _⟩ => ⟨S64x2048, .f32⟩
  | .local _ .vmem, ⟨0, _⟩ => ⟨S1x196x2048, .f32⟩
  | .local _ .vmem, ⟨1, _⟩ => ⟨S1x196x2048, .f32⟩
  | .local _ .vmem, ⟨2, _⟩ => ⟨S2048x64, .bf16⟩
  | .local _ .vmem, ⟨3, _⟩ => ⟨S1x64, .f32⟩
  | .local _ .vmem, ⟨4, _⟩ => ⟨S64x16, .bf16⟩
  | .local _ .vmem, ⟨5, _⟩ => ⟨S1x16, .f32⟩
  | .local _ .vmem, ⟨6, _⟩ => ⟨S16x8, .bf16⟩
  | .local _ .vmem, ⟨7, _⟩ => ⟨S1x8, .f32⟩
  | .local _ .vmem, ⟨8, _⟩ => ⟨S8x1, .bf16⟩
  | .local _ .vmem, ⟨9, _⟩ => ⟨S1x1, .f32⟩
  | .local _ .vmem, ⟨10, _⟩ => ⟨S1x1x2048, .f32⟩
  | .local _ .vmem, ⟨11, _⟩ => ⟨S1x1x2048, .f32⟩
  | _, _ => ⟨S64x14x14x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64x14x14x2048_S64x196x2048 : S64x14x14x2048.ShapeCasts S64x196x2048
  bitsLt_bf16_f32 : FTy.bits .bf16 < FTy.bits .f32
  shapeCasts_S64_S1x64 : S64.ShapeCasts S1x64
  shapeCasts_S16_S1x16 : S16.ShapeCasts S1x16
  shapeCasts_S8_S1x8 : S8.ShapeCasts S1x8
  shapeCasts_S1_S1x1 : S1.ShapeCasts S1x1
  inb_S1x196x2048_S1x196x2048_0_0_0 : ∀ a, (![0, 0, 0] : Fin 3 → Nat) a + S1x196x2048.size a ≤ S1x196x2048.size a
  h_S1x196x2048 : 0 < S1x196x2048.numel
  shapeCasts_S1x196x2048_S196x2048 : S1x196x2048.ShapeCasts S196x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S196x64 : S1x64.Broadcasts S196x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S196x16 : S1x16.Broadcasts S196x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S196x8 : S1x8.Broadcasts S196x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S196x1 : S1x1.Broadcasts S196x1
  broadcasts_S196x1_S196x2048 : S196x1.Broadcasts S196x2048
  reduces_S196x2048_S2048 : S196x2048.Reduces [0] S2048
  shapeCasts_S2048_S1x2048 : S2048.ShapeCasts S1x2048
  reduces_S196x1_S1 : S196x1.Reduces [0] S1
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S64x1x2048_S64x2048 : S64x1x2048.ShapeCasts S64x2048
  dot_S196x2048_S2048x64_S196x64_1_0_0_1_n_n_wf : DotDims.WF S196x2048 S2048x64 S196x64 [1] [0] [0] [1] [] []
  dot_S196x64_S64x16_S196x16_1_0_0_1_n_n_wf : DotDims.WF S196x64 S64x16 S196x16 [1] [0] [0] [1] [] []
  dot_S196x16_S16x8_S196x8_1_0_0_1_n_n_wf : DotDims.WF S196x16 S16x8 S196x8 [1] [0] [0] [1] [] []
  dot_S196x8_S8x1_S196x1_1_0_0_1_n_n_wf : DotDims.WF S196x8 S8x1 S196x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x196x2048.size a ≤ S64x196x2048.size a
  hwx0_0 : ∀ i : grid0.Coords, EltTy.bits .f32 = 32 ∨ (Rect.block (s := S64x196x2048) S1x196x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .bf16 = 32 ∨ (Rect.block (s := S64x16) S64x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .bf16 = 32 ∨ (Rect.block (s := S16x8) S16x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .bf16 = 32 ∨ (Rect.block (s := S8x1) S8x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x2048.size a ≤ S64x1x2048.size a
  hwx0_9 : ∀ i : grid0.Coords, EltTy.bits .f32 = 32 ∨ (Rect.block (s := S64x1x2048) S1x1x2048.size (cc0_transform_9 i) (hinb0_9 i)).WholeWords (EltTy.packing .f32)

variable [Facts₀]

def dot_S196x2048_S2048x64_S196x64_1_0_0_1_n_n : DotDims S196x2048 S2048x64 S196x64 where
  lhsContracting := [1]
  rhsContracting := [0]
  lhsNonContracting := [0]
  rhsNonContracting := [1]
  lhsBatch := []
  rhsBatch := []
  wf := dot_S196x2048_S2048x64_S196x64_1_0_0_1_n_n_wf
def dot_S196x64_S64x16_S196x16_1_0_0_1_n_n : DotDims S196x64 S64x16 S196x16 where
  lhsContracting := [1]
  rhsContracting := [0]
  lhsNonContracting := [0]
  rhsNonContracting := [1]
  lhsBatch := []
  rhsBatch := []
  wf := dot_S196x64_S64x16_S196x16_1_0_0_1_n_n_wf
def dot_S196x16_S16x8_S196x8_1_0_0_1_n_n : DotDims S196x16 S16x8 S196x8 where
  lhsContracting := [1]
  rhsContracting := [0]
  lhsNonContracting := [0]
  rhsNonContracting := [1]
  lhsBatch := []
  rhsBatch := []
  wf := dot_S196x16_S16x8_S196x8_1_0_0_1_n_n_wf
def dot_S196x8_S8x1_S196x1_1_0_0_1_n_n : DotDims S196x8 S8x1 S196x1 where
  lhsContracting := [1]
  rhsContracting := [0]
  lhsNonContracting := [0]
  rhsNonContracting := [1]
  lhsBatch := []
  rhsBatch := []
  wf := dot_S196x8_S8x1_S196x1_1_0_0_1_n_n_wf

abbrev win0_0 : Pipeline.Window sig grid0 :=
  Pipeline.Window.ofSpec (Memref.whole main_v0) S1x196x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x14x14x2048 : Shape := ⟨4, ![64, 14, 14, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S64x14x14x64 : Shape := ⟨4, ![64, 14, 14, 64]⟩
abbrev S1x1x1x64 : Shape := ⟨4, ![1, 1, 1, 64]⟩
abbrev S_ : Shape := ⟨0, ![]⟩
abbrev S64x14x14x16 : Shape := ⟨4, ![64, 14, 14, 16]⟩
abbrev S1x1x1x16 : Shape := ⟨4, ![1, 1, 1, 16]⟩
abbrev S64x14x14x8 : Shape := ⟨4, ![64, 14, 14, 8]⟩
abbrev S1x1x1x8 : Shape := ⟨4, ![1, 1, 1, 8]⟩
abbrev S64x14x14x1 : Shape := ⟨4, ![64, 14, 14, 1]⟩
abbrev S1x1x1x1 : Shape := ⟨4, ![1, 1, 1, 1]⟩
abbrev S64x2048 : Shape := ⟨2, ![64, 2048]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x14x14x2048, .f32⟩
  | .hbm, ⟨1, _⟩ => ⟨S2048x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S64x14x14x64, .f32⟩
  | .hbm, ⟨10, _⟩ => ⟨S1x1x1x64, .f32⟩
  | .hbm, ⟨11, _⟩ => ⟨S64x14x14x64, .f32⟩
  | .hbm, ⟨12, _⟩ => ⟨S64x14x14x64, .f32⟩
  | .hbm, ⟨13, _⟩ => ⟨S_, .f32⟩
  | .hbm, ⟨14, _⟩ => ⟨S64x14x14x64, .f32⟩
  | .hbm, ⟨15, _⟩ => ⟨S64x14x14x64, .f32⟩
  | .hbm, ⟨16, _⟩ => ⟨S64x14x14x16, .f32⟩
  | .hbm, ⟨17, _⟩ => ⟨S1x1x1x16, .f32⟩
  | .hbm, ⟨18, _⟩ => ⟨S64x14x14x16, .f32⟩
  | .hbm, ⟨19, _⟩ => ⟨S64x14x14x16, .f32⟩
  | .hbm, ⟨20, _⟩ => ⟨S_, .f32⟩
  | .hbm, ⟨21, _⟩ => ⟨S64x14x14x16, .f32⟩
  | .hbm, ⟨22, _⟩ => ⟨S64x14x14x16, .f32⟩
  | .hbm, ⟨23, _⟩ => ⟨S64x14x14x8, .f32⟩
  | .hbm, ⟨24, _⟩ => ⟨S1x1x1x8, .f32⟩
  | .hbm, ⟨25, _⟩ => ⟨S64x14x14x8, .f32⟩
  | .hbm, ⟨26, _⟩ => ⟨S64x14x14x8, .f32⟩
  | .hbm, ⟨27, _⟩ => ⟨S_, .f32⟩
  | .hbm, ⟨28, _⟩ => ⟨S64x14x14x8, .f32⟩
  | .hbm, ⟨29, _⟩ => ⟨S64x14x14x8, .f32⟩
  | .hbm, ⟨30, _⟩ => ⟨S64x14x14x1, .f32⟩
  | .hbm, ⟨31, _⟩ => ⟨S1x1x1x1, .f32⟩
  | .hbm, ⟨32, _⟩ => ⟨S64x14x14x1, .f32⟩
  | .hbm, ⟨33, _⟩ => ⟨S64x14x14x1, .f32⟩
  | .hbm, ⟨34, _⟩ => ⟨S64x14x14x1, .f32⟩
  | .hbm, ⟨35, _⟩ => ⟨S64x14x14x1, .f32⟩
  | .hbm, ⟨36, _⟩ => ⟨S_, .f32⟩
  | .hbm, ⟨37, _⟩ => ⟨S64x14x14x1, .f32⟩
  | .hbm, ⟨38, _⟩ => ⟨S64x14x14x1, .f32⟩
  | .hbm, ⟨39, _⟩ => ⟨S_, .f32⟩
  | .hbm, ⟨40, _⟩ => ⟨S64x14x14x1, .f32⟩
  | .hbm, ⟨41, _⟩ => ⟨S64x14x14x1, .f32⟩
  | .hbm, ⟨42, _⟩ => ⟨S64x14x14x2048, .f32⟩
  | .hbm, ⟨43, _⟩ => ⟨S64x14x14x2048, .f32⟩
  | .hbm, ⟨44, _⟩ => ⟨S_, .f32⟩
  | .hbm, ⟨45, _⟩ => ⟨S64x2048, .f32⟩
  | .hbm, ⟨46, _⟩ => ⟨S_, .f32⟩
  | .hbm, ⟨47, _⟩ => ⟨S64x2048, .f32⟩
  | .hbm, ⟨48, _⟩ => ⟨S64x2048, .f32⟩
  | .hbm, ⟨49, _⟩ => ⟨S_, .f32⟩
  | .hbm, ⟨50, _⟩ => ⟨S64x1, .f32⟩
  | .hbm, ⟨51, _⟩ => ⟨S_, .f32⟩
  | .hbm, ⟨52, _⟩ => ⟨S64x1, .f32⟩
  | .hbm, ⟨53, _⟩ => ⟨S64x1, .f32⟩
  | .hbm, ⟨54, _⟩ => ⟨S64x2048, .f32⟩
  | .hbm, ⟨55, _⟩ => ⟨S64x2048, .f32⟩
  | _, _ => ⟨S64x14x14x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S64x14x14x64_0_1_2_3 : S1x1x1x64.BroadcastsInDim S64x14x14x64 (![0, 1, 2, 3] : Fin 4 → Fin S64x14x14x64.rank)
  bcast_S_S64x14x14x64 : S_.BroadcastsInDim S64x14x14x64 (![] : Fin 0 → Fin S64x14x14x64.rank)
  bcast_S16_S1x1x1x16_3 : S16.BroadcastsInDim S1x1x1x16 (![3] : Fin 1 → Fin S1x1x1x16.rank)
  bcast_S1x1x1x16_S64x14x14x16_0_1_2_3 : S1x1x1x16.BroadcastsInDim S64x14x14x16 (![0, 1, 2, 3] : Fin 4 → Fin S64x14x14x16.rank)
  bcast_S_S64x14x14x16 : S_.BroadcastsInDim S64x14x14x16 (![] : Fin 0 → Fin S64x14x14x16.rank)
  bcast_S8_S1x1x1x8_3 : S8.BroadcastsInDim S1x1x1x8 (![3] : Fin 1 → Fin S1x1x1x8.rank)
  bcast_S1x1x1x8_S64x14x14x8_0_1_2_3 : S1x1x1x8.BroadcastsInDim S64x14x14x8 (![0, 1, 2, 3] : Fin 4 → Fin S64x14x14x8.rank)
  bcast_S_S64x14x14x8 : S_.BroadcastsInDim S64x14x14x8 (![] : Fin 0 → Fin S64x14x14x8.rank)
  bcast_S1_S1x1x1x1_3 : S1.BroadcastsInDim S1x1x1x1 (![3] : Fin 1 → Fin S1x1x1x1.rank)
  bcast_S1x1x1x1_S64x14x14x1_0_1_2_3 : S1x1x1x1.BroadcastsInDim S64x14x14x1 (![0, 1, 2, 3] : Fin 4 → Fin S64x14x14x1.rank)
  bcast_S_S64x14x14x1 : S_.BroadcastsInDim S64x14x14x1 (![] : Fin 0 → Fin S64x14x14x1.rank)
  bcast_S64x14x14x1_S64x14x14x2048_0_1_2_3 : S64x14x14x1.BroadcastsInDim S64x14x14x2048 (![0, 1, 2, 3] : Fin 4 → Fin S64x14x14x2048.rank)
  reducesTo_S64x14x14x2048_S64x2048_d1_2 : S64x14x14x2048.ReducesTo [1, 2] S64x2048
  h_S_ : 0 < S_.numel
  bcast_S_S64x2048 : S_.BroadcastsInDim S64x2048 (![] : Fin 0 → Fin S64x2048.rank)
  reducesTo_S64x14x14x1_S64x1_d1_2 : S64x14x14x1.ReducesTo [1, 2] S64x1
  bcast_S_S64x1 : S_.BroadcastsInDim S64x1 (![] : Fin 0 → Fin S64x1.rank)
  bcast_S64x1_S64x2048_0_1 : S64x1.BroadcastsInDim S64x2048 (![0, 1] : Fin 2 → Fin S64x2048.rank)
  dot_S64x14x14x2048_S2048x64_S64x14x14x64_3_0_012_1_n_n_wf : DotDims.WF S64x14x14x2048 S2048x64 S64x14x14x64 [3] [0] [0, 1, 2] [1] [] []
  dot_S64x14x14x64_S64x16_S64x14x14x16_3_0_012_1_n_n_wf : DotDims.WF S64x14x14x64 S64x16 S64x14x14x16 [3] [0] [0, 1, 2] [1] [] []
  dot_S64x14x14x16_S16x8_S64x14x14x8_3_0_012_1_n_n_wf : DotDims.WF S64x14x14x16 S16x8 S64x14x14x8 [3] [0] [0, 1, 2] [1] [] []
  dot_S64x14x14x8_S8x1_S64x14x14x1_3_0_012_1_n_n_wf : DotDims.WF S64x14x14x8 S8x1 S64x14x14x1 [3] [0] [0, 1, 2] [1] [] []

variable [Facts₀]

def dot_S64x14x14x2048_S2048x64_S64x14x14x64_3_0_012_1_n_n : DotDims S64x14x14x2048 S2048x64 S64x14x14x64 where
  lhsContracting := [3]
  rhsContracting := [0]
  lhsNonContracting := [0, 1, 2]
  rhsNonContracting := [1]
  lhsBatch := []
  rhsBatch := []
  wf := dot_S64x14x14x2048_S2048x64_S64x14x14x64_3_0_012_1_n_n_wf
def dot_S64x14x14x64_S64x16_S64x14x14x16_3_0_012_1_n_n : DotDims S64x14x14x64 S64x16 S64x14x14x16 where
  lhsContracting := [3]
  rhsContracting := [0]
  lhsNonContracting := [0, 1, 2]
  rhsNonContracting := [1]
  lhsBatch := []
  rhsBatch := []
  wf := dot_S64x14x14x64_S64x16_S64x14x14x16_3_0_012_1_n_n_wf
def dot_S64x14x14x16_S16x8_S64x14x14x8_3_0_012_1_n_n : DotDims S64x14x14x16 S16x8 S64x14x14x8 where
  lhsContracting := [3]
  rhsContracting := [0]
  lhsNonContracting := [0, 1, 2]
  rhsNonContracting := [1]
  lhsBatch := []
  rhsBatch := []
  wf := dot_S64x14x14x16_S16x8_S64x14x14x8_3_0_012_1_n_n_wf
def dot_S64x14x14x8_S8x1_S64x14x14x1_3_0_012_1_n_n : DotDims S64x14x14x8 S8x1 S64x14x14x1 where
  lhsContracting := [3]
  rhsContracting := [0]
  lhsNonContracting := [0, 1, 2]
  rhsNonContracting := [1]
  lhsBatch := []
  rhsBatch := []
  wf := dot_S64x14x14x8_S8x1_S64x14x14x1_3_0_012_1_n_n_wf

class Facts : Prop extends Facts₀ where

variable [Facts]
-- ==== Proof.Spec.lean ====
/-
  The function both programs compute, written once over plain index functions.

  Each pixel of the input carries a channel vector `v` of 2048 entries. Three affine layers, each followed by
  `max · 0`, and a fourth affine layer take it to one number, the pixel's logit; the logistic function of the
  logit is the pixel's attention weight `att v`. A batch entry has 196 = 14 · 14 pixels. Its pooled feature
  at channel `c` is the attention-weighted sum of the pixels' channel-`c` entries divided by the sum of the
  weights. The kernel computes exactly that quotient, the pixels numbered row-major by `r = 14 h + w`
  (`pooled`); the reference divides both sums by 196 first, the sums taken over `h` then `w` and started from
  its zero literal (`pooledMean`).
-/
import Idealize.ShloMosaic.PureOps.Ideal
import Idealize.ShloMosaic.Lib.ValueIdx

noncomputable section

namespace Cert.Attn

open Idealize.ShloMosaic Idealize.ShloMosaic.ValueIdx
open scoped BigOperators

/-- One affine layer: entry `d` of `v · W + b`. -/
def affine {n k : ℕ} (W : Fin n → Fin k → EReal) (b : Fin k → EReal) (v : Fin n → EReal) (d : Fin k) : EReal :=
  (∑ j : Fin n, v j * W j d) + b d

/-- An affine layer followed by `max · 0`. -/
def relu {n k : ℕ} (W : Fin n → Fin k → EReal) (b : Fin k → EReal) (v : Fin n → EReal) (d : Fin k) : EReal :=
  max (affine W b v d) 0

/-- The four layers' weights and biases, as plain functions of their coordinates. -/
structure Weights where
  W1 : Fin 2048 → Fin 64 → EReal
  b1 : Fin 64 → EReal
  W2 : Fin 64 → Fin 16 → EReal
  b2 : Fin 16 → EReal
  W3 : Fin 16 → Fin 8 → EReal
  b3 : Fin 8 → EReal
  W4 : Fin 8 → Fin 1 → EReal
  b4 : Fin 1 → EReal

/-- A pixel's logit: the fourth affine layer over the three rectified ones. -/
def Weights.logit (P : Weights) (v : Fin 2048 → EReal) : EReal :=
  affine P.W4 P.b4 (relu P.W3 P.b3 (relu P.W2 P.b2 (relu P.W1 P.b1 v))) 0

/-- A pixel's attention weight: the logistic function of its logit. -/
def Weights.att (P : Weights) (v : Fin 2048 → EReal) : EReal := Ideal.logistic (P.logit v)

/-- The weights read off the eight parameter arrays as the programs receive them
    (matrices `[in, out]`, biases `[out]`). -/
def weightsOf (a1 : (⟨2, ![2048, 64]⟩ : Shape).Idx → EReal) (a2 : (⟨1, ![64]⟩ : Shape).Idx → EReal)
    (a3 : (⟨2, ![64, 16]⟩ : Shape).Idx → EReal) (a4 : (⟨1, ![16]⟩ : Shape).Idx → EReal)
    (a5 : (⟨2, ![16, 8]⟩ : Shape).Idx → EReal) (a6 : (⟨1, ![8]⟩ : Shape).Idx → EReal)
    (a7 : (⟨2, ![8, 1]⟩ : Shape).Idx → EReal) (a8 : (⟨1, ![1]⟩ : Shape).Idx → EReal) : Weights where
  W1 k d := a1 (ix2 k d)
  b1 d := a2 (ix1 d)
  W2 k d := a3 (ix2 k d)
  b2 d := a4 (ix1 d)
  W3 k d := a5 (ix2 k d)
  b3 d := a6 (ix1 d)
  W4 k d := a7 (ix2 k d)
  b4 d := a8 (ix1 d)

/-- The same weights read off the blocks the kernel body loads: the biases arrive as one-row matrices. -/
def weightsOfBlocks (y1 : (⟨2, ![2048, 64]⟩ : Shape).Idx → EReal) (y2 : (⟨2, ![1, 64]⟩ : Shape).Idx → EReal)
    (y3 : (⟨2, ![64, 16]⟩ : Shape).Idx → EReal) (y4 : (⟨2, ![1, 16]⟩ : Shape).Idx → EReal)
    (y5 : (⟨2, ![16, 8]⟩ : Shape).Idx → EReal) (y6 : (⟨2, ![1, 8]⟩ : Shape).Idx → EReal)
    (y7 : (⟨2, ![8, 1]⟩ : Shape).Idx → EReal) (y8 : (⟨2, ![1, 1]⟩ : Shape).Idx → EReal) : Weights where
  W1 k d := y1 (ix2 k d)
  b1 d := y2 (ix2 (0 : Fin 1) d)
  W2 k d := y3 (ix2 k d)
  b2 d := y4 (ix2 (0 : Fin 1) d)
  W3 k d := y5 (ix2 k d)
  b3 d := y6 (ix2 (0 : Fin 1) d)
  W4 k d := y7 (ix2 k d)
  b4 d := y8 (ix2 (0 : Fin 1) d)

/-- Pixel `r` of a batch entry sits in image row `r / 14` … -/
def rowH (r : Fin 196) : Fin 14 := ⟨r.val / 14, by have := r.isLt; omega⟩
/-- … and image column `r % 14`. -/
def rowW (r : Fin 196) : Fin 14 := ⟨r.val % 14, Nat.mod_lt _ (by decide)⟩

/-- The channel vector of pixel `(h, w)` of batch entry `b`. -/
def pix (x : (⟨4, ![64, 14, 14, 2048]⟩ : Shape).Idx → EReal) (b : Fin 64) (h w : Fin 14) : Fin 2048 → EReal :=
  fun k => x (ix4 b h w k)

/-- What the kernel leaves at `(b, c)`: the weighted sum over the 196 pixels divided by the sum of the weights. -/
def pooled (P : Weights) (x : (⟨4, ![64, 14, 14, 2048]⟩ : Shape).Idx → EReal) (b : Fin 64) (c : Fin 2048) : EReal :=
  Ideal.div (∑ r : Fin 196, P.att (pix x b (rowH r) (rowW r)) * x (ix4 b (rowH r) (rowW r) c))
    (∑ r : Fin 196, P.att (pix x b (rowH r) (rowW r)))

/-- What the reference leaves at `(b, c)`: the two sums taken over `h` then `w` from its zero literal, each
    divided by its literal `196.0`, then their quotient. -/
def pooledMean (P : Weights) (x : (⟨4, ![64, 14, 14, 2048]⟩ : Shape).Idx → EReal) (b : Fin 64) (c : Fin 2048) : EReal :=
  Ideal.div
    (Ideal.div (Ideal.ofBits .f32 0x00000000#32 + ∑ h : Fin 14, ∑ w : Fin 14, P.att (pix x b h w) * x (ix4 b h w c))
      (Ideal.ofBits .f32 0x43440000#32))
    (Ideal.div (Ideal.ofBits .f32 0x00000000#32 + ∑ h : Fin 14, ∑ w : Fin 14, P.att (pix x b h w))
      (Ideal.ofBits .f32 0x43440000#32))

/-- An extended real that is a real number. -/
def IsReal (x : EReal) : Prop := ∃ r : ℝ, x = (r : EReal)

/-- Every entry of an array is a real number. -/
def AllReal {s : Shape} (a : s.Idx → EReal) : Prop := ∀ i, IsReal (a i)

end Cert.Attn

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.Algebra.lean ====
/-
  The reference's closed form is the kernel's, when every weight and every input entry is a real number.

  With real weights and a real channel vector every layer's output is real (a finite sum of products of reals,
  plus a real, and the larger of that and zero), so the logit `z` is real and the attention weight is the positive
  real `1 / (1 + e^(-z))`. A batch entry's sum `M` of its 196 attention weights is therefore a positive real. For
  any extended real `S`, a nonzero real `c` and a nonzero real `M`, `(S / c) / (M / c) = S / M`: dividing by a
  nonzero real is multiplying by its reciprocal, and the reciprocals combine inside ℝ. The sums over the image
  rows and columns are the sums over the 196 pixels numbered row-major.
-/
import proofs.«151469_j27625229648173_1_alg».proof.Proof.Spec
import proofs.«151469_j27625229648173_1_alg».proof.Proof.LibERealArith
import Mathlib.Algebra.BigOperators.Fin
import Mathlib.Algebra.Order.BigOperators.Group.Finset
import Mathlib.Tactic.FieldSimp
import Mathlib.Tactic.Positivity

noncomputable section

namespace Cert.Attn

open Idealize.ShloMosaic Idealize.ShloMosaic.ValueIdx Cert.Lib.ERealArith
open scoped BigOperators

/-! ### Real numbers are closed under the layers' operations -/

theorem isReal_zero : IsReal 0 := ⟨0, zero_eq_coe⟩

theorem IsReal.add {x y : EReal} (hx : IsReal x) (hy : IsReal y) : IsReal (x + y) := by
  obtain ⟨a, rfl⟩ := hx; obtain ⟨b, rfl⟩ := hy; exact ⟨a + b, add_coe a b⟩

theorem IsReal.mul {x y : EReal} (hx : IsReal x) (hy : IsReal y) : IsReal (x * y) := by
  obtain ⟨a, rfl⟩ := hx; obtain ⟨b, rfl⟩ := hy; exact ⟨a * b, mul_coe a b⟩

theorem IsReal.max {x y : EReal} (hx : IsReal x) (hy : IsReal y) : IsReal (max x y) := by
  obtain ⟨a, rfl⟩ := hx; obtain ⟨b, rfl⟩ := hy; exact ⟨Max.max a b, max_coe a b⟩

theorem IsReal.sum {ι : Type*} (s : Finset ι) (g : ι → EReal) (h : ∀ i ∈ s, IsReal (g i)) : IsReal (∑ i ∈ s, g i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem affine_real {n k : ℕ} {W : Fin n → Fin k → EReal} {b : Fin k → EReal} {v : Fin n → EReal}
    (hW : ∀ j d, IsReal (W j d)) (hb : ∀ d, IsReal (b d)) (hv : ∀ j, IsReal (v j)) (d : Fin k) :
    IsReal (affine W b v d) :=
  (IsReal.sum _ _ fun j _ => (hv j).mul (hW j d)).add (hb d)

theorem relu_real {n k : ℕ} {W : Fin n → Fin k → EReal} {b : Fin k → EReal} {v : Fin n → EReal}
    (hW : ∀ j d, IsReal (W j d)) (hb : ∀ d, IsReal (b d)) (hv : ∀ j, IsReal (v j)) (d : Fin k) :
    IsReal (relu W b v d) :=
  (affine_real hW hb hv d).max isReal_zero

/-- Every weight and bias is a real number. -/
structure Weights.Real (P : Weights) : Prop where
  W1 : ∀ k d, IsReal (P.W1 k d)
  b1 : ∀ d, IsReal (P.b1 d)
  W2 : ∀ k d, IsReal (P.W2 k d)
  b2 : ∀ d, IsReal (P.b2 d)
  W3 : ∀ k d, IsReal (P.W3 k d)
  b3 : ∀ d, IsReal (P.b3 d)
  W4 : ∀ k d, IsReal (P.W4 k d)
  b4 : ∀ d, IsReal (P.b4 d)

/-- Real weights give a real channel vector a real logit. -/
theorem Weights.logit_real {P : Weights} (hP : P.Real) {v : Fin 2048 → EReal} (hv : ∀ k, IsReal (v k)) :
    IsReal (P.logit v) :=
  affine_real hP.W4 hP.b4 (relu_real hP.W3 hP.b3 (relu_real hP.W2 hP.b2 (relu_real hP.W1 hP.b1 hv))) 0

/-- … and a positive real attention weight: `1 / (1 + e^(-z))`. -/
theorem Weights.att_pos {P : Weights} (hP : P.Real) {v : Fin 2048 → EReal} (hv : ∀ k, IsReal (v k)) :
    ∃ a : ℝ, 0 < a ∧ P.att v = (a : EReal) := by
  obtain ⟨z, hz⟩ := Weights.logit_real hP hv
  refine ⟨(1 + Real.exp (-z))⁻¹, inv_pos.mpr (by positivity), ?_⟩
  unfold Weights.att
  rw [hz, Ideal.logistic_coe]

/-- The weights read off real parameter arrays are real. -/
theorem weightsOf_real {a1 : (⟨2, ![2048, 64]⟩ : Shape).Idx → EReal} {a2 : (⟨1, ![64]⟩ : Shape).Idx → EReal}
    {a3 : (⟨2, ![64, 16]⟩ : Shape).Idx → EReal} {a4 : (⟨1, ![16]⟩ : Shape).Idx → EReal}
    {a5 : (⟨2, ![16, 8]⟩ : Shape).Idx → EReal} {a6 : (⟨1, ![8]⟩ : Shape).Idx → EReal}
    {a7 : (⟨2, ![8, 1]⟩ : Shape).Idx → EReal} {a8 : (⟨1, ![1]⟩ : Shape).Idx → EReal}
    (h1 : AllReal a1) (h2 : AllReal a2) (h3 : AllReal a3) (h4 : AllReal a4) (h5 : AllReal a5) (h6 : AllReal a6)
    (h7 : AllReal a7) (h8 : AllReal a8) : (weightsOf a1 a2 a3 a4 a5 a6 a7 a8).Real :=
  ⟨fun _ _ => h1 _, fun _ => h2 _, fun _ _ => h3 _, fun _ => h4 _, fun _ _ => h5 _, fun _ => h6 _, fun _ _ => h7 _, fun _ => h8 _⟩

/-! ### The 196 pixels of a batch entry, numbered row-major -/

/-- Pixel `r = 14 h + w` is the pixel in image row `h`, column `w`. -/
def rowEquiv : Fin 196 ≃ Fin 14 × Fin 14 where
  toFun r := (rowH r, rowW r)
  invFun p := ⟨14 * p.1.val + p.2.val, by have := p.1.isLt; have := p.2.isLt; omega⟩
  left_inv r := Fin.ext (by show 14 * (r.val / 14) + r.val % 14 = r.val; omega)
  right_inv p := Prod.ext (Fin.ext (by show (14 * p.1.val + p.2.val) / 14 = p.1.val; have := p.2.isLt; omega))
    (Fin.ext (by show (14 * p.1.val + p.2.val) % 14 = p.2.val; have := p.2.isLt; omega))

/-- A sum over the pixels is the sum over the image rows of the sums over the image columns. -/
theorem sum_rows {M : Type*} [AddCommMonoid M] (f : Fin 14 → Fin 14 → M) :
    ∑ r : Fin 196, f (rowH r) (rowW r) = ∑ h : Fin 14, ∑ w : Fin 14, f h w := by
  rw [← Fintype.sum_prod_type']
  exact Fintype.sum_equiv rowEquiv _ _ fun _ => rfl

/-! ### The quotient of the two means is the quotient of the two sums -/

/-- The reference's literal `196.0`. -/
theorem ofBits_196 : Ideal.ofBits .f32 0x43440000#32 = ((196 : ℝ) : EReal) := by
  simp [Ideal.ofBits, Ideal.ieee, -EReal.coe_mul]; norm_num

/-- `(S / c) / (M / c) = S / M` for any extended real `S` and nonzero reals `c`, `M`. -/
theorem div_div_same (S : EReal) {c M : ℝ} (hc : c ≠ 0) (hM : M ≠ 0) :
    Ideal.div (Ideal.div S (c : EReal)) (Ideal.div (M : EReal) (c : EReal)) = Ideal.div S (M : EReal) := by
  rw [Ideal.div_coe hc S, Cert.Lib.ERealArith.div_coe hc M, Ideal.div_coe (div_ne_zero hM hc), Ideal.div_coe hM, mul_assoc,
    ← EReal.coe_mul]
  congr 2
  field_simp

/-- With real weights and a real input the reference's closed form is the kernel's. -/
theorem pooledMean_eq_pooled {P : Weights} (hP : P.Real) {x : (⟨4, ![64, 14, 14, 2048]⟩ : Shape).Idx → EReal}
    (hx : AllReal x) (b : Fin 64) (c : Fin 2048) : pooledMean P x b c = pooled P x b c := by
  unfold pooledMean pooled
  rw [Ideal.ofBits_zero_f32, zero_add, zero_add, ofBits_196,
    ← sum_rows (fun h w => P.att (pix x b h w) * x (ix4 b h w c)), ← sum_rows (fun h w => P.att (pix x b h w))]
  have hatt : ∀ r : Fin 196, ∃ a : ℝ, 0 < a ∧ P.att (pix x b (rowH r) (rowW r)) = (a : EReal) :=
    fun r => Weights.att_pos hP fun k => hx _
  choose a ha_pos ha using hatt
  have hM : (∑ r : Fin 196, P.att (pix x b (rowH r) (rowW r))) = ((∑ r : Fin 196, a r : ℝ) : EReal) := by
    rw [Finset.sum_congr rfl fun r _ => ha r, univ_sum_coe]
  have hpos : 0 < ∑ r : Fin 196, a r := Finset.sum_pos (fun r _ => ha_pos r) ⟨0, Finset.mem_univ _⟩
  rw [hM]
  exact div_div_same _ (by norm_num) hpos.ne'

end Cert.Attn

end
-- ==== Proof.Finite.lean ====
/-
  From the statement's precondition to "every entry of every input is a real number".

  The precondition is the conjunction, over the nine inputs, of "every entry `x` has `|x| < +∞`", where `|x|` is
  `max x (-x)` on the extended reals and `+∞` is the value of the f32 pattern `0x7F800000`, which is `⊤`. An extended real
  with `max x (-x) < ⊤` is neither `⊤` (then `max x (-x) = ⊤`) nor `⊥` (then `-x = ⊤`), so it is a real number.
  One lemma does this for a single input of any shape; the theorem splits the conjunction and uses it nine times.
-/
import proofs.«151469_j27625229648173_1_alg».proof.Pre_finite_inputs
import proofs.«151469_j27625229648173_1_alg».proof.Proof.Gen.Pre_finite_inputs
import proofs.«151469_j27625229648173_1_alg».proof.Proof.Spec
import Idealize.ShloMosaic.Lib.ReduceAll
import Idealize.ShloMosaic.PureOps.Ideal.Laws

namespace Cert.Attn.Finite

open Idealize.ShloMosaic

/-- The f32 pattern `0x7F800000` (sign 0, exponent all ones, significand 0) denotes `⊤`. -/
theorem ofBits_inf : Ideal.ofBits .f32 0x7F800000#32 = (⊤ : EReal) := by
  simp [Ideal.ofBits, Ideal.ieee]

/-- An extended real whose absolute value `max x (-x)` is below `⊤` is a real number. -/
theorem isReal_of_abs_lt_top (x : EReal) (h : max x (-x) < ⊤) : IsReal x := by
  induction x using EReal.rec with
  | bot => simp at h
  | coe r => exact ⟨r, rfl⟩
  | top => simp at h

/-- The comparison `|x| < +∞` coming out 1 says `x` is a real number. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  simp [Ideal.cmp, hn] at h

/-- The rank-0 shape has one index. -/
instance subsingleton_scalar_idx : Subsingleton (⟨0, ![]⟩ : Shape).Idx :=
  ⟨fun a b => funext fun d => d.elim0⟩

/-- One input: if the reduce-and over every entry of `|a i| < +∞`, started from 1, is 1, every entry of `a` is real. -/
theorem allReal_of_all {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (a : FVec Ideal s .f32)
    (e : Host.reduce IntOp.andi
        (cmpf (F := Ideal) .olt (Host.absf a)
          (broadcastInDim s ![] hb (constant (F := Ideal) (⟨0, ![]⟩ : Shape) .f32 0x7F800000#32)))
        (constantI (⟨0, ![]⟩ : Shape) 1 1#1) hr hu ValueIdx.ix0 = 1#1) :
    AllReal a := by
  intro i
  have hi := Host.reduce_andi_all _ _ hr hu _ e i
  exact isReal_of_cmp (a i) hi

open Cert.Pre_finite_inputs in
/-- The precondition holding says every entry of each of the nine inputs is a real number. -/
theorem allReal_of_pre [Cert.Pre_finite_inputs.Facts] (a0 : Cert.Pre_finite_inputs.S64x14x14x2048.Idx → EReal) (a1 : Cert.Pre_finite_inputs.S2048x64.Idx → EReal) (a2 : Cert.Pre_finite_inputs.S64.Idx → EReal) (a3 : Cert.Pre_finite_inputs.S64x16.Idx → EReal) (a4 : Cert.Pre_finite_inputs.S16.Idx → EReal) (a5 : Cert.Pre_finite_inputs.S16x8.Idx → EReal) (a6 : Cert.Pre_finite_inputs.S8.Idx → EReal) (a7 : Cert.Pre_finite_inputs.S8x1.Idx → EReal) (a8 : Cert.Pre_finite_inputs.S1.Idx → EReal)
    (h : Cert.Pre_finite_inputs.fn (F := Ideal) a0 a1 a2 a3 a4 a5 a6 a7 a8 = fun _ => 1#1) :
    Cert.Attn.AllReal a0 ∧ Cert.Attn.AllReal a1 ∧ Cert.Attn.AllReal a2 ∧ Cert.Attn.AllReal a3 ∧ Cert.Attn.AllReal a4 ∧ Cert.Attn.AllReal a5 ∧ Cert.Attn.AllReal a6 ∧ Cert.Attn.AllReal a7 ∧ Cert.Attn.AllReal a8 := by
  have h0 := congrFun h ValueIdx.ix0
  dsimp only [Cert.Pre_finite_inputs.fn, Cert.Pre_finite_inputs.fn_part1, Cert.Pre_finite_inputs.fn_part2,
    Idealize.ShloMosaic.andi] at h0
  -- the result is the left-nested conjunction ((((((((p0 ∧ p1) ∧ p2) ∧ p3) ∧ p4) ∧ p5) ∧ p6) ∧ p7) ∧ p8
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all _ _ _ a0 e0, allReal_of_all _ _ _ a1 e1, allReal_of_all _ _ _ a2 e2,
    allReal_of_all _ _ _ a3 e3, allReal_of_all _ _ _ a4 e4, allReal_of_all _ _ _ a5 e5,
    allReal_of_all _ _ _ a6 e6, allReal_of_all _ _ _ a7 e7, allReal_of_all _ _ _ a8 e8⟩

end Cert.Attn.Finite
-- ==== Proof.RefValue.lean ====
/-
  The reference program's result, read at an index, is the specification's `pooledMean`.

  The reference applies four affine layers over the channel axis of the input (the first three followed by
  `max · 0`), then `1 / (1 + exp (-z))` — the logistic function — to the resulting logit, which gives each
  pixel's weight; it then sums weight × input and the weights alone over the two image axes, divides each sum by
  the literal 196.0, and takes the quotient. Each stage is read at an index built from its coordinates.
-/
import proofs.«151469_j27625229648173_1_alg».proof.Proof.Gen.ReferenceIdeal.Read
import proofs.«151469_j27625229648173_1_alg».proof.Proof.Spec
import proofs.«151469_j27625229648173_1_alg».proof.Proof.LibERealArith
import Idealize.ShloMosaic.PureOps.Ideal.Laws
import Idealize.ShloMosaic.Lib.ValueIdx
import Mathlib.Algebra.BigOperators.Group.Finset.Basic
import Mathlib.Algebra.BigOperators.Group.Finset.Sigma

noncomputable section

namespace Cert.Attn.Ref

open Cert.ReferenceIdeal Cert.ReferenceIdeal.Read Idealize.ShloMosaic Idealize.ShloMosaic.ValueIdx
open scoped BigOperators

/-! ## Indices are equal when their coordinates are -/

theorem idx1_ext {n0 : ℕ} (p q : (⟨1, ![n0]⟩ : Shape).Idx) (h0 : (p 0).val = (q 0).val) : p = q :=
  funext fun a => Fin.ext (by match a with | ⟨0, _⟩ => exact h0)

theorem idx2_ext {n0 n1 : ℕ} (p q : (⟨2, ![n0, n1]⟩ : Shape).Idx) (h0 : (p 0).val = (q 0).val)
    (h1 : (p 1).val = (q 1).val) : p = q :=
  funext fun a => Fin.ext (by match a with | ⟨0, _⟩ => exact h0 | ⟨1, _⟩ => exact h1)

theorem idx4_ext {n0 n1 n2 n3 : ℕ} (p q : (⟨4, ![n0, n1, n2, n3]⟩ : Shape).Idx) (h0 : (p 0).val = (q 0).val)
    (h1 : (p 1).val = (q 1).val) (h2 : (p 2).val = (q 2).val) (h3 : (p 3).val = (q 3).val) : p = q :=
  funext fun a => Fin.ext (by
    match a with | ⟨0, _⟩ => exact h0 | ⟨1, _⟩ => exact h1 | ⟨2, _⟩ => exact h2 | ⟨3, _⟩ => exact h3)

/-! ## A sum over the two image axes of a `[A, 14, 14, C]` array -/

/-- Dropping the two image axes keeps the batch coordinate … -/
theorem drop_val0 {A C : ℕ} (hr : (⟨4, ![A, 14, 14, C]⟩ : Shape).ReducesTo [1, 2] ⟨2, ![A, C]⟩)
    (i : (⟨4, ![A, 14, 14, C]⟩ : Shape).Idx) : (hr.drop i 0).val = (i 0).val := rfl

/-- … and the channel coordinate. -/
theorem drop_val1 {A C : ℕ} (hr : (⟨4, ![A, 14, 14, C]⟩ : Shape).ReducesTo [1, 2] ⟨2, ![A, C]⟩)
    (i : (⟨4, ![A, 14, 14, C]⟩ : Shape).Idx) : (hr.drop i 1).val = (i 3).val := rfl

/-- The host's sum over the axes `[1, 2]`, read at `j`: the indices that reduce to `j` are exactly
    `(j 0, h, w, j 1)` for `h, w : Fin 14`, so the sum over them is the double sum over `h` and `w`. -/
theorem hostReduceAdd_two {A C : ℕ} (hr : (⟨4, ![A, 14, 14, C]⟩ : Shape).ReducesTo [1, 2] ⟨2, ![A, C]⟩)
    (x : (⟨4, ![A, 14, 14, C]⟩ : Shape).Idx → EReal) (init : EReal) (j : (⟨2, ![A, C]⟩ : Shape).Idx) :
    Ideal.hostReduceAdd hr x init j
      = init + ∑ h : Fin 14, ∑ w : Fin 14, x (ix4 (n0 := A) (n3 := C) (j 0) h w (j 1)) := by
  unfold Ideal.hostReduceAdd
  congr 1
  rw [← Finset.sum_product']
  refine Finset.sum_nbij' (fun i => (i 1, i 2)) (fun p => ix4 (n0 := A) (n3 := C) (j 0) p.1 p.2 (j 1)) ?_ ?_ ?_ ?_ ?_
  · intro i _; exact Finset.mem_product.mpr ⟨Finset.mem_univ _, Finset.mem_univ _⟩
  · intro p _
    refine Finset.mem_filter.mpr ⟨Finset.mem_univ _, ?_⟩
    funext a
    refine Fin.ext ?_
    match a with
    | ⟨0, _⟩ => rfl
    | ⟨1, _⟩ => rfl
  · intro i hi
    have hd := (Finset.mem_filter.mp hi).2
    have h0 : (i 0).val = (j 0).val := (drop_val0 hr i).symm.trans (congrArg (fun f => (f 0).val) hd)
    have h3 : (i 3).val = (j 1).val := (drop_val1 hr i).symm.trans (congrArg (fun f => (f 1).val) hd)
    exact idx4_ext _ _ h0.symm rfl rfl h3.symm
  · intro p _; rfl
  · intro i hi
    have hd := (Finset.mem_filter.mp hi).2
    have h0 : (i 0).val = (j 0).val := (drop_val0 hr i).symm.trans (congrArg (fun f => (f 0).val) hd)
    have h3 : (i 3).val = (j 1).val := (drop_val1 hr i).symm.trans (congrArg (fun f => (f 1).val) hd)
    exact congrArg x (idx4_ext _ _ h0 rfl rfl h3)

section Stages

variable (x0 : S64x14x14x2048.Idx → EReal) (x1 : S2048x64.Idx → EReal) (x2 : S64.Idx → EReal)
  (x3 : S64x16.Idx → EReal) (x4 : S16.Idx → EReal) (x5 : S16x8.Idx → EReal) (x6 : S8.Idx → EReal)
  (x7 : S8x1.Idx → EReal) (x8 : S1.Idx → EReal)

/-! ## The four layers -/

/-- The first layer at pixel `(b, h, w)`, output channel `d`. -/
theorem layer1_at (b : Fin 64) (h w : Fin 14) (d : Fin 64) :
    val_main_v4 (F := Ideal) x0 x1 x2 (ix4 b h w d)
      = relu (weightsOf x1 x2 x3 x4 x5 x6 x7 x8).W1 (weightsOf x1 x2 x3 x4 x5 x6 x7 x8).b1 (pix x0 b h w) d := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32]
  have e0 : ∀ k, lidx_main_v0 (ix4 b h w d) k = ix4 b h w k := fun k => idx4_ext _ _ rfl rfl rfl rfl
  have e1 : ∀ k, ridx_main_v0 (ix4 b h w d) k = ix2 k d := fun k => idx2_ext _ _ rfl rfl
  have e2 : idx_main_v1 (idx_main_v2 (ix4 b h w d)) = ix1 d := idx1_ext _ _ rfl
  simp only [e0, e1, e2]
  rfl

/-- The second layer at pixel `(b, h, w)`, output channel `d`. -/
theorem layer2_at (b : Fin 64) (h w : Fin 14) (d : Fin 16) :
    val_main_v9 (F := Ideal) x0 x1 x2 x3 x4 (ix4 b h w d)
      = relu (weightsOf x1 x2 x3 x4 x5 x6 x7 x8).W2 (weightsOf x1 x2 x3 x4 x5 x6 x7 x8).b2
          (relu (weightsOf x1 x2 x3 x4 x5 x6 x7 x8).W1 (weightsOf x1 x2 x3 x4 x5 x6 x7 x8).b1 (pix x0 b h w)) d := by
  rw [val_main_v9_apply, val_main_v8_apply, val_main_v5_apply, val_main_v7_apply, val_main_v6_apply,
    val_main_call1_v0_apply, val_main_call1_cst_apply]
  simp only [Ideal.maximumf_def, Ideal.addf_def, Ideal.ofBits_def, Ideal.ofBits_zero_f32]
  have e0 : ∀ k, lidx_main_v5 (ix4 b h w d) k = ix4 b h w k := fun k => idx4_ext _ _ rfl rfl rfl rfl
  have e1 : ∀ k, ridx_main_v5 (ix4 b h w d) k = ix2 k d := fun k => idx2_ext _ _ rfl rfl
  have e2 : idx_main_v6 (idx_main_v7 (ix4 b h w d)) = ix1 d := idx1_ext _ _ rfl
  simp only [e0, e1, e2, layer1_at x0 x1 x2 x3 x4 x5 x6 x7 x8]
  rfl

/-- The third layer at pixel `(b, h, w)`, output channel `d`. -/
theorem layer3_at (b : Fin 64) (h w : Fin 14) (d : Fin 8) :
    val_main_v14 (F := Ideal) x0 x1 x2 x3 x4 x5 x6 (ix4 b h w d)
      = relu (weightsOf x1 x2 x3 x4 x5 x6 x7 x8).W3 (weightsOf x1 x2 x3 x4 x5 x6 x7 x8).b3
          (relu (weightsOf x1 x2 x3 x4 x5 x6 x7 x8).W2 (weightsOf x1 x2 x3 x4 x5 x6 x7 x8).b2
            (relu (weightsOf x1 x2 x3 x4 x5 x6 x7 x8).W1 (weightsOf x1 x2 x3 x4 x5 x6 x7 x8).b1 (pix x0 b h w))) d := by
  rw [val_main_v14_apply, val_main_v13_apply, val_main_v10_apply, val_main_v12_apply, val_main_v11_apply,
    val_main_call2_v0_apply, val_main_call2_cst_apply]
  simp only [Ideal.maximumf_def, Ideal.addf_def, Ideal.ofBits_def, Ideal.ofBits_zero_f32]
  have e0 : ∀ k, lidx_main_v10 (ix4 b h w d) k = ix4 b h w k := fun k => idx4_ext _ _ rfl rfl rfl rfl
  have e1 : ∀ k, ridx_main_v10 (ix4 b h w d) k = ix2 k d := fun k => idx2_ext _ _ rfl rfl
  have e2 : idx_main_v11 (idx_main_v12 (ix4 b h w d)) = ix1 d := idx1_ext _ _ rfl
  simp only [e0, e1, e2, layer2_at x0 x1 x2 x3 x4 x5 x6 x7 x8]
  rfl

/-- The fourth layer, with no `max`: the pixel's logit. Its one output channel is channel `0`. -/
theorem logit_at (b : Fin 64) (h w : Fin 14) (d : Fin 1) :
    val_main_v18 (F := Ideal) x0 x1 x2 x3 x4 x5 x6 x7 x8 (ix4 b h w d)
      = (weightsOf x1 x2 x3 x4 x5 x6 x7 x8).logit (pix x0 b h w) := by
  obtain rfl : d = 0 := Subsingleton.elim _ _
  rw [val_main_v18_apply, val_main_v15_apply, val_main_v17_apply, val_main_v16_apply]
  simp only [Ideal.addf_def]
  have e0 : ∀ k, lidx_main_v15 (ix4 b h w (0 : Fin 1)) k = ix4 b h w k := fun k => idx4_ext _ _ rfl rfl rfl rfl
  have e1 : ∀ k, ridx_main_v15 (ix4 b h w (0 : Fin 1)) k = ix2 k (0 : Fin 1) := fun k => idx2_ext _ _ rfl rfl
  have e2 : idx_main_v16 (idx_main_v17 (ix4 b h w (0 : Fin 1))) = ix1 (0 : Fin 1) := idx1_ext _ _ rfl
  simp only [e0, e1, e2, layer3_at x0 x1 x2 x3 x4 x5 x6 x7 x8]
  rfl

/-- The pixel's weight: the reference spells the logistic function of the logit with a negation, an
    exponential, a sum with the literal `1.0` and a quotient of the literal `1.0` by it. -/
theorem att_at (b : Fin 64) (h w : Fin 14) (d : Fin 1) :
    val_main_v24 (F := Ideal) x0 x1 x2 x3 x4 x5 x6 x7 x8 (ix4 b h w d)
      = (weightsOf x1 x2 x3 x4 x5 x6 x7 x8).att (pix x0 b h w) := by
  rw [val_main_v24_apply, val_main_v23_apply, val_main_cst_0_apply, val_main_v22_apply, val_main_v21_apply,
    val_main_cst_apply, val_main_v20_apply, val_main_v19_apply, logit_at]
  simp only [Ideal.hostDivf_def, Ideal.ofBits_def, Ideal.addf_def, Ideal.hostUnary_exp_def, Ideal.hostNegf_def,
    Ideal.negf_def, Cert.Lib.ERealArith.ofBits_one, EReal.coe_one]
  rfl

/-! ## The two sums and the quotient -/

/-- The sum of weight × input over the image, from the reference's zero literal. -/
theorem weighted_sum_at (b : Fin 64) (c : Fin 2048) :
    val_main_v27 (F := Ideal) x0 x1 x2 x3 x4 x5 x6 x7 x8 (ix2 b c)
      = Ideal.ofBits .f32 0x00000000#32
          + ∑ h : Fin 14, ∑ w : Fin 14,
              (weightsOf x1 x2 x3 x4 x5 x6 x7 x8).att (pix x0 b h w) * x0 (ix4 b h w c) := by
  unfold val_main_v27 Host.reduceAdd
  rw [Ideal.hostReduceAdd_def, hostReduceAdd_two]
  refine congrArg₂ (· + ·) rfl (Finset.sum_congr rfl fun h _ => Finset.sum_congr rfl fun w _ => ?_)
  show val_main_v26 (F := Ideal) x0 x1 x2 x3 x4 x5 x6 x7 x8 (ix4 b h w c) = _
  rw [val_main_v26_apply, val_main_v25_apply]
  have e : idx_main_v25 (ix4 b h w c) = ix4 b h w (0 : Fin 1) := idx4_ext _ _ rfl rfl rfl rfl
  rw [e, att_at]
  rfl

/-- The sum of the weights over the image, from the reference's zero literal. -/
theorem weight_sum_at (b : Fin 64) (d : Fin 1) :
    val_main_v30 (F := Ideal) x0 x1 x2 x3 x4 x5 x6 x7 x8 (ix2 b d)
      = Ideal.ofBits .f32 0x00000000#32
          + ∑ h : Fin 14, ∑ w : Fin 14, (weightsOf x1 x2 x3 x4 x5 x6 x7 x8).att (pix x0 b h w) := by
  unfold val_main_v30 Host.reduceAdd
  rw [Ideal.hostReduceAdd_def, hostReduceAdd_two]
  refine congrArg₂ (· + ·) rfl (Finset.sum_congr rfl fun h _ => Finset.sum_congr rfl fun w _ => ?_)
  exact att_at x0 x1 x2 x3 x4 x5 x6 x7 x8 b h w d

end Stages

/-- The reference's result at `(b, c)` is the quotient of the two sums, each divided by the literal `196.0`. -/
theorem ref_value (x0 : S64x14x14x2048.Idx → EReal) (x1 : S2048x64.Idx → EReal) (x2 : S64.Idx → EReal)
    (x3 : S64x16.Idx → EReal) (x4 : S16.Idx → EReal) (x5 : S16x8.Idx → EReal) (x6 : S8.Idx → EReal)
    (x7 : S8x1.Idx → EReal) (x8 : S1.Idx → EReal) (i : S64x2048.Idx) :
    val_main_v34 (F := Ideal) x0 x1 x2 x3 x4 x5 x6 x7 x8 i
      = Cert.Attn.pooledMean (Cert.Attn.weightsOf x1 x2 x3 x4 x5 x6 x7 x8) x0 (i 0) (i 1) := by
  obtain ⟨b, c, rfl⟩ : ∃ (b : Fin 64) (c : Fin 2048), i = ix2 b c := ⟨i 0, i 1, eq_ix2 i⟩
  have e : idx_main_v33 (ix2 b c) = ix2 b (0 : Fin 1) := idx2_ext _ _ rfl rfl
  rw [val_main_v34_apply, val_main_v29_apply, val_main_v33_apply, e, val_main_v32_apply, val_main_v28_apply,
    val_main_cst_2_apply, val_main_v31_apply, val_main_cst_4_apply, weighted_sum_at, weight_sum_at]
  simp only [Ideal.hostDivf_def, Ideal.ofBits_def]
  rfl

end Cert.Attn.Ref

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibLeadingUnit.lean ====
/-
  A block of a rank-3 array taken one slab at a time has shape [1, a, b]; a kernel body drops that leading unit
  axis before it computes on the [a, b] matrix and puts it back before it stores. Both shape casts move no
  element: the row-major position of (0, p, q) in [1, a, b] is p * b + q, the position of (p, q) in [a, b].
  Stated here for any sizes and any element type, read at an index given by its coordinates.
-/
import Idealize.ShloMosaic.Lib.Pipeline.Value
import Idealize.ShloMosaic.Lib.ValueIdx

noncomputable section

namespace Cert.LeadingUnit

open Idealize.ShloMosaic Idealize.ShloMosaic.ValueIdx

variable {α : Type} {a b : Nat}

/-- Row-major position of (0, p, q) in [1, a, b] and of (p, q) in [a, b] are the same number. -/
theorem rowMajor_lead (p : Fin a) (q : Fin b) :
    ((⟨3, ![1, a, b]⟩ : Shape).rowMajor (ix3 (0 : Fin 1) p q)).val = ((⟨2, ![a, b]⟩ : Shape).rowMajor (ix2 p q)).val := by
  rw [Shape.rowMajor_val_three, Shape.rowMajor_val_two]
  show (((0 : Fin 1) : ℕ) * (![1, a, b] : Fin 3 → ℕ) 1 + (p : ℕ)) * (![1, a, b] : Fin 3 → ℕ) 2 + (q : ℕ)
    = (p : ℕ) * (![a, b] : Fin 2 → ℕ) 1 + (q : ℕ)
  simp

/-- Dropping the leading unit axis: the [a, b] matrix at (p, q) is the [1, a, b] slab at (0, p, q). -/
theorem dropLead_apply (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) :=
  shapeCast_apply v h (ix2 p q) (ix3 (0 : Fin 1) p q) (rowMajor_lead p q)

/-- Putting the leading unit axis back: the [1, a, b] slab at (0, p, q) is the [a, b] matrix at (p, q). -/
theorem addLead_apply (v : (⟨2, ![a, b]⟩ : Shape).Idx → α) (h : (⟨2, ![a, b]⟩ : Shape).ShapeCasts ⟨3, ![1, a, b]⟩)
    (p : Fin a) (q : Fin b) : shapeCast ⟨3, ![1, a, b]⟩ v h (ix3 (0 : Fin 1) p q) = v (ix2 p q) :=
  shapeCast_apply v h (ix3 (0 : Fin 1) p q) (ix2 p q) (rowMajor_lead p q).symm

end Cert.LeadingUnit

end
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KernelBlock.lean ====
/-
  What the kernel body leaves in its output block, read at an index, as a function of the blocks it loads.

  The body loads a slab of 196 pixels by 2048 channels, the four layers' weight matrices and their biases as
  one-row matrices. Three times it multiplies into a zero accumulator, adds the bias row to every row and takes
  the maximum with zero; a fourth product and bias give each pixel's logit, whose logistic value is the pixel's
  weight. The column of weights is spread over the 2048 channels and multiplied into the slab; the products and
  the weights are summed over the pixels, and the first sum is divided by the second at every channel.
-/
import proofs.«151469_j27625229648173_1_alg».proof.Proof.Gen.KernelIdeal.Frame
import proofs.«151469_j27625229648173_1_alg».proof.Proof.Spec
import proofs.«151469_j27625229648173_1_alg».proof.Proof.LibPlainDot
import proofs.«151469_j27625229648173_1_alg».proof.Proof.LibLeadingUnit
import proofs.«151469_j27625229648173_1_alg».proof.Proof.LibRowSpread
import proofs.«151469_j27625229648173_1_alg».proof.Proof.LibColumn
import Idealize.ShloMosaic.PureOps.Ideal.Laws
import Idealize.ShloMosaic.Lib.Pipeline.Value
import Idealize.ShloMosaic.Lib.ValueIdx

noncomputable section

namespace Cert.Attn.Block

open Cert.KernelIdeal Cert.KernelIdeal.Gen Idealize.ShloMosaic Idealize.ShloMosaic.ValueIdx Cert.Attn
open scoped BigOperators

/-! ## One layer, at any sizes -/

/-- A matrix product into the zero accumulator, read at the entry `(p, q)`, whatever the operands' formats: the
    sum over the contracted coordinate of the products of the left operand's row `p` and the right operand's
    column `q`. -/
theorem matmul_zero_at {R K N : ℕ} {φ₁ φ₂ : FTy}
    {d : DotDims (⟨2, ![R, K]⟩ : Shape) (⟨2, ![K, N]⟩ : Shape) (⟨2, ![R, N]⟩ : Shape)} (h : PlainDot.IsPlain d)
    (prec : Option ContractPrecision) (l : FVec Ideal (⟨2, ![R, K]⟩ : Shape) φ₁)
    (r : FVec Ideal (⟨2, ![K, N]⟩ : Shape) φ₂) (p : Fin R) (q : Fin N) :
    FloatOps.matmul d prec l r (constant (F := Ideal) (⟨2, ![R, N]⟩ : Shape) .f32 0x00000000#32) (ix2 p q)
      = ∑ k : Fin K, l (ix2 p k) * r (ix2 k q) :=
  (Ideal.matmul_constant_zero_apply d prec l r (ix2 p q)).trans (PlainDot.sum_contr h l r p q)

/-- One layer read at `(p, q)`: the product into the zero accumulator, plus the bias row spread down the rows,
    then the maximum with the zero splat, is `relu` of the left operand's row `p` at `q`. The row, the weights and
    the bias are named by what they are at their entries (`hv`, `hW`, `hB`). -/
theorem layer_at {R K N : ℕ} {φ₁ φ₂ : FTy}
    {d : DotDims (⟨2, ![R, K]⟩ : Shape) (⟨2, ![K, N]⟩ : Shape) (⟨2, ![R, N]⟩ : Shape)} (h : PlainDot.IsPlain d)
    (l : FVec Ideal (⟨2, ![R, K]⟩ : Shape) φ₁) (w : FVec Ideal (⟨2, ![K, N]⟩ : Shape) φ₂)
    (b : FVec Ideal (⟨2, ![1, N]⟩ : Shape) .f32) (hb : (⟨2, ![1, N]⟩ : Shape).Broadcasts (⟨2, ![R, N]⟩ : Shape))
    (p : Fin R) (q : Fin N)
    (v : Fin K → EReal) (hv : ∀ k, l (ix2 p k) = v k)
    (W : Fin K → Fin N → EReal) (hW : ∀ k, w (ix2 k q) = W k q)
    (B : Fin N → EReal) (hB : b (ix2 (0 : Fin 1) q) = B q) :
    maximumf
        (addf (matmul d none l w (constant (F := Ideal) (⟨2, ![R, N]⟩ : Shape) .f32 0x00000000#32))
          (broadcastTo (⟨2, ![R, N]⟩ : Shape) b hb))
        (broadcast (⟨2, ![R, N]⟩ : Shape) (Scalar.ofBits (F := Ideal) .f32 0x00000000#32)) (ix2 p q)
      = relu W B v q := by
  show max (FloatOps.matmul d none l w (constant (F := Ideal) (⟨2, ![R, N]⟩ : Shape) .f32 0x00000000#32) (ix2 p q)
      + broadcastTo (⟨2, ![R, N]⟩ : Shape) b hb (ix2 p q)) (Ideal.ofBits .f32 0x00000000#32)
    = max ((∑ j : Fin K, v j * W j q) + B q) 0
  rw [matmul_zero_at h, Cert.Lib.RowSpread.spreadRows_apply, Ideal.ofBits_zero_f32, hB]
  simp only [hv, hW]

/-! ## The four products' dimension numbers are the plain ones -/

theorem plain1 : PlainDot.IsPlain (R := 196) (K := 2048) (N := 64) dot_S196x2048_S2048x64_S196x64_1_0_0_1_n_n :=
  ⟨rfl, rfl, rfl, rfl, rfl, rfl⟩
theorem plain2 : PlainDot.IsPlain (R := 196) (K := 64) (N := 16) dot_S196x64_S64x16_S196x16_1_0_0_1_n_n :=
  ⟨rfl, rfl, rfl, rfl, rfl, rfl⟩
theorem plain3 : PlainDot.IsPlain (R := 196) (K := 16) (N := 8) dot_S196x16_S16x8_S196x8_1_0_0_1_n_n :=
  ⟨rfl, rfl, rfl, rfl, rfl, rfl⟩
theorem plain4 : PlainDot.IsPlain (R := 196) (K := 8) (N := 1) dot_S196x8_S8x1_S196x1_1_0_0_1_n_n :=
  ⟨rfl, rfl, rfl, rfl, rfl, rfl⟩

/-! ## The payloads at an index -/

/-- The slab with its leading unit axis dropped: the matrix at `(r, k)` is the slab at `(0, r, k)`. -/
theorem pay2_at (v0 : Vec Ideal S1x196x2048 .f32) (r : Fin 196) (k : Fin 2048) :
    k0_pay2 (F := Ideal) v0 (ix2 r k) = v0 (ix3 (0 : Fin 1) r k) := by
  unfold k0_pay2
  exact Cert.LeadingUnit.dropLead_apply v0 _ r k

/-- The three rectified layers at `(r, f)`: the third layer's `relu` over the second's over the first's, on the
    pixel `r`'s channel vector, with the weights and biases read off the loaded blocks. -/
theorem pay3_at (v0 : Vec Ideal S1x196x2048 .f32) (v3 : Vec Ideal S2048x64 .bf16) (v6 : Vec Ideal S1x64 .f32)
    (v13 : Vec Ideal S64x16 .bf16) (v16 : Vec Ideal S1x16 .f32) (v23 : Vec Ideal S16x8 .bf16) (v26 : Vec Ideal S1x8 .f32)
    (r : Fin 196) (f : Fin 8) :
    k0_pay3 (F := Ideal) v0 v3 v6 v13 v16 v23 v26 (ix2 r f)
      = relu (fun k d => v23 (ix2 k d)) (fun d => v26 (ix2 (0 : Fin 1) d))
          (relu (fun k d => v13 (ix2 k d)) (fun d => v16 (ix2 (0 : Fin 1) d))
            (relu (fun k d => v3 (ix2 k d)) (fun d => v6 (ix2 (0 : Fin 1) d)) (fun k => v0 (ix3 (0 : Fin 1) r k)))) f := by
  unfold k0_pay3
  simp only [shapeCast_self]
  refine layer_at plain3 _ v23 v26 _ r f _ (fun k => ?_) _ (fun _ => rfl) _ rfl
  refine layer_at plain2 _ v13 v16 _ r k _ (fun k => ?_) _ (fun _ => rfl) _ rfl
  refine layer_at plain1 _ v3 v6 _ r k _ (fun k => ?_) _ (fun _ => rfl) _ rfl
  exact pay2_at v0 r k

/-! ## The two sums over the pixels -/

/-- The sum over the 196 rows of a `[196, 2048]` matrix at the channel `c`. -/
theorem rowsum_at (src : FVec Ideal S196x2048 .f32) (h : S196x2048.Reduces [0] S2048) (hφ : FKind.Formats .f32)
    (hacc : (0x00000000#32 : BitVec 32) = FKind.add.neutral .f32 hφ) (c : Fin 2048) :
    multiReduction (F := Ideal) .add [0] S2048 src 0x00000000#32 h hφ hacc (ix1 c) = ∑ r : Fin 196, src (ix2 r c) := by
  refine (Ideal.multiReduction_add_single src 0x00000000#32 h hφ hacc (ix1 c)).trans ?_
  show ∑ k : Fin 196, src (h.lift (ix1 c) k) = ∑ r : Fin 196, src (ix2 r c)
  refine Finset.sum_congr rfl fun k _ => congrArg src ?_
  funext a
  refine Fin.ext ?_
  match a with
  | ⟨0, _⟩ => rfl
  | ⟨1, _⟩ => rfl

/-- The sum over the 196 rows of a `[196, 1]` column. -/
theorem colsum_at (src : FVec Ideal S196x1 .f32) (h : S196x1.Reduces [0] S1) (hφ : FKind.Formats .f32)
    (hacc : (0x00000000#32 : BitVec 32) = FKind.add.neutral .f32 hφ) (z : Fin 1) :
    multiReduction (F := Ideal) .add [0] S1 src 0x00000000#32 h hφ hacc (ix1 z) = ∑ r : Fin 196, src (ix2 r (0 : Fin 1)) := by
  refine (Ideal.multiReduction_add_single src 0x00000000#32 h hφ hacc (ix1 z)).trans ?_
  show ∑ k : Fin 196, src (h.lift (ix1 z) k) = ∑ r : Fin 196, src (ix2 r (0 : Fin 1))
  refine Finset.sum_congr rfl fun k _ => congrArg src ?_
  obtain rfl : z = 0 := Subsingleton.elim _ _
  funext a
  refine Fin.ext ?_
  match a with
  | ⟨0, _⟩ => rfl
  | ⟨1, _⟩ => rfl

/-- A `[1, 1]` matrix spread over the 2048 lanes of a `[1, 2048]` row reads its one entry everywhere. -/
theorem spread11_at (x : FVec Ideal S1x1 .f32) (h : S1x1.Broadcasts S1x2048) (c : Fin 2048) :
    broadcastTo S1x2048 x h (ix2 (0 : Fin 1) c) = x (ix2 (0 : Fin 1) (0 : Fin 1)) :=
  broadcastTo_apply x h _ _ fun a => by
    match a with
    | ⟨0, _⟩ => exact (if_pos rfl).symm
    | ⟨1, _⟩ => exact (if_pos rfl).symm

/-! ## The last payload -/

/-- The stored block at the channel `c`: with the pixels' weights `a r` (the logistic value of the fourth product
    plus its bias, `ha`) and the slab's column `X r` (`hX`), the weighted sum over the pixels divided by the sum
    of the weights. -/
theorem pay1_at (v1 : FVec Ideal S196x2048 .f32) (v32 : FVec Ideal S196x8 .bf16) (v34 : FVec Ideal S8x1 .bf16)
    (v36 : Vec Ideal S1x1 .f32) (c : Fin 2048)
    (a : Fin 196 → EReal)
    (ha : ∀ r, Ideal.logistic ((∑ j : Fin 8, v32 (ix2 r j) * v34 (ix2 j (0 : Fin 1))) + v36 (ix2 (0 : Fin 1) (0 : Fin 1))) = a r)
    (X : Fin 196 → EReal) (hX : ∀ r, v1 (ix2 r c) = X r) :
    k0_pay1 (F := Ideal) v1 v32 v34 (constant (F := Ideal) S196x1 .f32 0x00000000#32) v36 (ix3 (0 : Fin 1) (0 : Fin 1) c)
      = Ideal.div (∑ r : Fin 196, a r * X r) (∑ r : Fin 196, a r) := by
  unfold k0_pay1
  simp only [shapeCast_self]
  refine (Cert.LeadingUnit.addLead_apply (a := 1) (b := 2048) _ _ (0 : Fin 1) c).trans ?_
  rw [divf_apply]
  -- the weight of pixel r, as the body computes it
  have hw : ∀ r : Fin 196,
      logistic (addf (matmul dot_S196x8_S8x1_S196x1_1_0_0_1_n_n none v32 v34 (constant (F := Ideal) S196x1 .f32 0x00000000#32))
        (broadcastTo S196x1 v36 broadcasts_S1x1_S196x1)) (ix2 r (0 : Fin 1)) = a r := fun r => by
    show Ideal.logistic (FloatOps.matmul dot_S196x8_S8x1_S196x1_1_0_0_1_n_n none v32 v34
        (constant (F := Ideal) S196x1 .f32 0x00000000#32) (ix2 r (0 : Fin 1))
      + broadcastTo S196x1 v36 broadcasts_S1x1_S196x1 (ix2 r (0 : Fin 1))) = a r
    rw [matmul_zero_at plain4, Cert.Lib.RowSpread.spreadRows_apply]
    exact ha r
  refine congrArg₂ Ideal.div ?_ ?_
  · refine (Cert.Lib.RowSpread.asRow_apply _ _ (0 : Fin 1) c).trans ?_
    refine (rowsum_at _ _ _ _ c).trans ?_
    refine Finset.sum_congr rfl fun r _ => ?_
    rw [mulf_apply, ValueLayout.broadcastTo_a1_ab_apply (by decide), hw r, hX r]
  · refine (spread11_at _ _ c).trans ?_
    refine (Cert.Lib.RowSpread.asRow_apply _ _ (0 : Fin 1) (0 : Fin 1)).trans ?_
    refine (colsum_at _ _ _ _ (0 : Fin 1)).trans ?_
    exact Finset.sum_congr rfl fun r _ => hw r

/-- The fourth weight matrix passes through its cast to the same shape. -/
theorem pay4_eq (v33 : Vec Ideal S8x1 .bf16) : k0_pay4 (F := Ideal) v33 = v33 := by
  unfold k0_pay4
  exact shapeCast_self v33 _

/-! ## From the payloads to the block

The body stores once, through the whole output block, and every load reads a whole block: the rectangles sit at
zero offsets. -/

theorem offsets3 : (![0, 0, 0] : Fin 3 → Nat) = fun _ => 0 :=
  funext fun a => by
    match a with
    | ⟨0, _⟩ => rfl
    | ⟨1, _⟩ => rfl
    | ⟨2, _⟩ => rfl

theorem offsets2 : (![0, 0] : Fin 2 → Nat) = fun _ => 0 :=
  funext fun a => by
    match a with
    | ⟨0, _⟩ => rfl
    | ⟨1, _⟩ => rfl

/-- What the body leaves in the output block at the channel `c`: the attention-weighted sum of the slab's
    column `c` over its 196 pixels divided by the sum of the weights, the weights read off the loaded blocks. -/
theorem out_block (x0 : Vec Ideal S1x196x2048 .f32) (x1 : Vec Ideal S2048x64 .bf16) (x2 : Vec Ideal S1x64 .f32)
    (x3 : Vec Ideal S64x16 .bf16) (x4 : Vec Ideal S1x16 .f32) (x5 : Vec Ideal S16x8 .bf16) (x6 : Vec Ideal S1x8 .f32)
    (x7 : Vec Ideal S8x1 .bf16) (x8 : Vec Ideal S1x1 .f32) (c : Fin 2048) :
    out0_9 (F := Ideal) x0 x1 x2 x3 x4 x5 x6 x7 x8 (ix3 (0 : Fin 1) (0 : Fin 1) c)
      = Ideal.div (∑ r : Fin 196, (weightsOfBlocks x1 x2 x3 x4 x5 x6 x7 x8).att (fun k => x0 (ix3 (0 : Fin 1) r k)) * x0 (ix3 (0 : Fin 1) r c))
          (∑ r : Fin 196, (weightsOfBlocks x1 x2 x3 x4 x5 x6 x7 x8).att (fun k => x0 (ix3 (0 : Fin 1) r k))) := by
  unfold out0_9
  rw [View.canon_unit_zero offsets3]
  simp only [View.ld_unit_zero (S := S1x196x2048) offsets3, View.ld_unit_zero (S := S2048x64) offsets2,
    View.ld_unit_zero (S := S1x64) offsets2, View.ld_unit_zero (S := S64x16) offsets2,
    View.ld_unit_zero (S := S1x16) offsets2, View.ld_unit_zero (S := S16x8) offsets2,
    View.ld_unit_zero (S := S1x8) offsets2, View.ld_unit_zero (S := S8x1) offsets2,
    View.ld_unit_zero (S := S1x1) offsets2]
  refine pay1_at _ _ _ x8 c _ (fun r => ?_) _ (fun r => pay2_at x0 r c)
  simp only [pay3_at, pay4_eq]
  rfl

end Cert.Attn.Block

end
-- ==== Proof.KernelValue.lean ====
/-
  The kernel's run, read: its result array holds the pooled features `Cert.Attn.pooled` of the arguments.

  The pallas_call runs one grid point per batch entry `t`. At point `t` the input window of the reshaped input
  `[64, 196, 2048]` holds the slab `t`: row `r` of the slab is the channel vector of pixel `(r / 14, r % 14)` of
  batch entry `t` (the reshape merges the two image axes row-major). The eight parameter windows hold their whole
  arrays at every point: the matrices are the arguments themselves (the change of float format before the call is
  the identity on extended reals), the biases the arguments recast as one-row matrices. So what point `t` writes
  back is row `t` of one whole-array function of the arguments; the 64 blocks tile the result `[64, 1, 2048]`, and
  the reshape after the call drops the unit axis.
-/
import proofs.«151469_j27625229648173_1_alg».proof.Proof.Gen.KernelIdeal.Frame
import proofs.«151469_j27625229648173_1_alg».proof.Proof.KernelBlock
import proofs.«151469_j27625229648173_1_alg».proof.Proof.Spec
import proofs.«151469_j27625229648173_1_alg».proof.Proof.LibRowSpread
import Idealize.ShloMosaic.Lib.Pipeline.Value
import Idealize.ShloMosaic.Lib.ValueIdx
import Idealize.ShloMosaic.Lib.StableHlo.Run

set_option maxRecDepth 16384

noncomputable section

namespace Cert.Attn.Kernel

open Cert.KernelIdeal Cert.KernelIdeal.Gen Idealize.ShloMosaic Idealize.ShloMosaic.TcCoe Idealize.SL.Sem
open Idealize.ShloMosaic.StableHlo Idealize.ShloMosaic.ValueIdx Cert.Attn
open Idealize.ShloMosaic.Pipeline (Dat)
open scoped BigOperators

variable (m : (ℓ : Loc nD τ sig) → Buf (Elt Ideal) ℓ) (ρ : Dev nD → PrngReg)

/-! ### The arrays the region finds: the host operations before the call -/

/-- The input with its two image axes merged. -/
theorem V_v0 (c : Dev nD) : (V m c main_v0 : S64x196x2048.Idx → EReal)
    = shapeCast S64x196x2048 (m ((c : Thread nD τ).loc main_arg0)) shapeCasts_S64x14x14x2048_S64x196x2048 := by
  show StableHlo.after hostOps0 (fun b => m (c, b)) (Proc.devRef .tc main_v0) = _
  after_results
  rfl

/-- The four matrices: the change of float format is the identity on extended reals. -/
theorem V_v1 (c : Dev nD) : (V m c main_v1 : S2048x64.Idx → EReal) = m ((c : Thread nD τ).loc main_arg1) := by
  show StableHlo.after hostOps0 (fun b => m (c, b)) (Proc.devRef .tc main_v1) = _
  after_results
  rfl
theorem V_v2 (c : Dev nD) : (V m c main_v2 : S64x16.Idx → EReal) = m ((c : Thread nD τ).loc main_arg3) := by
  show StableHlo.after hostOps0 (fun b => m (c, b)) (Proc.devRef .tc main_v2) = _
  after_results
  rfl
theorem V_v3 (c : Dev nD) : (V m c main_v3 : S16x8.Idx → EReal) = m ((c : Thread nD τ).loc main_arg5) := by
  show StableHlo.after hostOps0 (fun b => m (c, b)) (Proc.devRef .tc main_v3) = _
  after_results
  rfl
theorem V_v4 (c : Dev nD) : (V m c main_v4 : S8x1.Idx → EReal) = m ((c : Thread nD τ).loc main_arg7) := by
  show StableHlo.after hostOps0 (fun b => m (c, b)) (Proc.devRef .tc main_v4) = _
  after_results
  rfl

/-- The four biases, recast as one-row matrices. -/
theorem V_v5 (c : Dev nD) : (V m c main_v5 : S1x64.Idx → EReal)
    = shapeCast S1x64 (m ((c : Thread nD τ).loc main_arg2)) shapeCasts_S64_S1x64 := by
  show StableHlo.after hostOps0 (fun b => m (c, b)) (Proc.devRef .tc main_v5) = _
  after_results
  rfl
theorem V_v6 (c : Dev nD) : (V m c main_v6 : S1x16.Idx → EReal)
    = shapeCast S1x16 (m ((c : Thread nD τ).loc main_arg4)) shapeCasts_S16_S1x16 := by
  show StableHlo.after hostOps0 (fun b => m (c, b)) (Proc.devRef .tc main_v6) = _
  after_results
  rfl
theorem V_v7 (c : Dev nD) : (V m c main_v7 : S1x8.Idx → EReal)
    = shapeCast S1x8 (m ((c : Thread nD τ).loc main_arg6)) shapeCasts_S8_S1x8 := by
  show StableHlo.after hostOps0 (fun b => m (c, b)) (Proc.devRef .tc main_v7) = _
  after_results
  rfl
theorem V_v8 (c : Dev nD) : (V m c main_v8 : S1x1.Idx → EReal)
    = shapeCast S1x1 (m ((c : Thread nD τ).loc main_arg8)) shapeCasts_S1_S1x1 := by
  show StableHlo.after hostOps0 (fun b => m (c, b)) (Proc.devRef .tc main_v8) = _
  after_results
  rfl

/-! ### The windows' blocks at a point -/

/-- The printed index maps, decided over the 64 grid points: the input's and the result's block index is the point
    on the leading axis; every parameter window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- The batch entry a grid point works on. -/
def pt (t : Fin cfg0.N) : Fin 64 := ⟨t.val, by have h := t.isLt; have e : cfg0.N = 64 := N_0; omega⟩

/-- Row `r` of the slab at point `t` is the channel vector of pixel `(r / 14, r % 14)` of batch entry `t`. -/
theorem blk0 (c : Dev nD) (t : Fin cfg0.N) (r : Fin 196) (k : Fin 2048) :
    iblk m c 0 t (ix3 (0 : Fin 1) r k) = m ((c : Thread nD τ).loc main_arg0) (ix4 (pt t) (rowH r) (rowW r) k) := by
  have e := idx_facts t
  show V m c main_v0 (((cfg0.win 0).blk t).view.emb (ix3 (0 : Fin 1) r k)) = _
  rw [V_v0]
  refine shapeCast_apply (s := S64x14x14x2048) (t := S64x196x2048) _ _ _ (ix4 (pt t) (rowH r) (rowW r) k) ?_
  show (S64x14x14x2048.rowMajor (ix4 (pt t) (rowH r) (rowW r) k)).val
    = (S64x196x2048.rowMajor (((cfg0.win 0).blk t).view.emb (ix3 (0 : Fin 1) r k))).val
  rw [Shape.rowMajor_val_four, Shape.rowMajor_val_three]
  show (((t.val * 14 + r.val / 14) * 14 + r.val % 14) * 2048 + k.val)
    = ((win0_0.index t (0 : Fin 3) * 1 + 1 * 0) * 196 + (win0_0.index t (1 : Fin 3) * 196 + 1 * r.val)) * 2048
      + (win0_0.index t (2 : Fin 3) * 2048 + 1 * k.val)
  omega

/-- The slab's row `r`, as a channel vector. -/
theorem row_eq (c : Dev nD) (t : Fin cfg0.N) (r : Fin 196) :
    (fun k : Fin 2048 => iblk m c 0 t (ix3 (0 : Fin 1) r k))
      = pix (m ((c : Thread nD τ).loc main_arg0)) (pt t) (rowH r) (rowW r) :=
  funext fun k => blk0 m c t r k

/-- The matrices' windows hold the arguments themselves. -/
theorem wblk1 (c : Dev nD) (t : Fin cfg0.N) (k : Fin 2048) (d : Fin 64) :
    iblk m c 1 t (ix2 k d) = m ((c : Thread nD τ).loc main_arg1) (ix2 k d) := by
  have e := idx_facts t
  show V m c main_v1 (((cfg0.win 1).blk t).view.emb (ix2 k d)) = _
  rw [V_v1]
  refine congrArg _ (funext fun a => Fin.ext ?_)
  match a with
  | ⟨0, _⟩ => show win0_1.index t (0 : Fin 2) * 2048 + 1 * k.val = k.val; omega
  | ⟨1, _⟩ => show win0_1.index t (1 : Fin 2) * 64 + 1 * d.val = d.val; omega
theorem wblk3 (c : Dev nD) (t : Fin cfg0.N) (k : Fin 64) (d : Fin 16) :
    iblk m c 3 t (ix2 k d) = m ((c : Thread nD τ).loc main_arg3) (ix2 k d) := by
  have e := idx_facts t
  show V m c main_v2 (((cfg0.win 3).blk t).view.emb (ix2 k d)) = _
  rw [V_v2]
  refine congrArg _ (funext fun a => Fin.ext ?_)
  match a with
  | ⟨0, _⟩ => show win0_3.index t (0 : Fin 2) * 64 + 1 * k.val = k.val; omega
  | ⟨1, _⟩ => show win0_3.index t (1 : Fin 2) * 16 + 1 * d.val = d.val; omega
theorem wblk5 (c : Dev nD) (t : Fin cfg0.N) (k : Fin 16) (d : Fin 8) :
    iblk m c 5 t (ix2 k d) = m ((c : Thread nD τ).loc main_arg5) (ix2 k d) := by
  have e := idx_facts t
  show V m c main_v3 (((cfg0.win 5).blk t).view.emb (ix2 k d)) = _
  rw [V_v3]
  refine congrArg _ (funext fun a => Fin.ext ?_)
  match a with
  | ⟨0, _⟩ => show win0_5.index t (0 : Fin 2) * 16 + 1 * k.val = k.val; omega
  | ⟨1, _⟩ => show win0_5.index t (1 : Fin 2) * 8 + 1 * d.val = d.val; omega
theorem wblk7 (c : Dev nD) (t : Fin cfg0.N) (k : Fin 8) (d : Fin 1) :
    iblk m c 7 t (ix2 k d) = m ((c : Thread nD τ).loc main_arg7) (ix2 k d) := by
  have e := idx_facts t
  show V m c main_v4 (((cfg0.win 7).blk t).view.emb (ix2 k d)) = _
  rw [V_v4]
  refine congrArg _ (funext fun a => Fin.ext ?_)
  match a with
  | ⟨0, _⟩ => show win0_7.index t (0 : Fin 2) * 8 + 1 * k.val = k.val; omega
  | ⟨1, _⟩ => show win0_7.index t (1 : Fin 2) * 1 + 1 * d.val = d.val; omega

/-- The biases' windows hold the arguments as one-row matrices. -/
theorem bblk2 (c : Dev nD) (t : Fin cfg0.N) (d : Fin 64) :
    iblk m c 2 t (ix2 (0 : Fin 1) d) = m ((c : Thread nD τ).loc main_arg2) (ix1 d) := by
  have e := idx_facts t
  show V m c main_v5 (((cfg0.win 2).blk t).view.emb (ix2 (0 : Fin 1) d)) = _
  rw [V_v5]
  have h : ((cfg0.win 2).blk t).view.emb (ix2 (0 : Fin 1) d) = ix2 (0 : Fin 1) d := funext fun a => Fin.ext (by
    match a with
    | ⟨0, _⟩ => show win0_2.index t (0 : Fin 2) * 1 + 1 * 0 = 0; omega
    | ⟨1, _⟩ => show win0_2.index t (1 : Fin 2) * 64 + 1 * d.val = d.val; omega)
  rw [h]
  exact Cert.Lib.RowSpread.asRow_apply _ _ 0 d
theorem bblk4 (c : Dev nD) (t : Fin cfg0.N) (d : Fin 16) :
    iblk m c 4 t (ix2 (0 : Fin 1) d) = m ((c : Thread nD τ).loc main_arg4) (ix1 d) := by
  have e := idx_facts t
  show V m c main_v6 (((cfg0.win 4).blk t).view.emb (ix2 (0 : Fin 1) d)) = _
  rw [V_v6]
  have h : ((cfg0.win 4).blk t).view.emb (ix2 (0 : Fin 1) d) = ix2 (0 : Fin 1) d := funext fun a => Fin.ext (by
    match a with
    | ⟨0, _⟩ => show win0_4.index t (0 : Fin 2) * 1 + 1 * 0 = 0; omega
    | ⟨1, _⟩ => show win0_4.index t (1 : Fin 2) * 16 + 1 * d.val = d.val; omega)
  rw [h]
  exact Cert.Lib.RowSpread.asRow_apply _ _ 0 d
theorem bblk6 (c : Dev nD) (t : Fin cfg0.N) (d : Fin 8) :
    iblk m c 6 t (ix2 (0 : Fin 1) d) = m ((c : Thread nD τ).loc main_arg6) (ix1 d) := by
  have e := idx_facts t
  show V m c main_v7 (((cfg0.win 6).blk t).view.emb (ix2 (0 : Fin 1) d)) = _
  rw [V_v7]
  have h : ((cfg0.win 6).blk t).view.emb (ix2 (0 : Fin 1) d) = ix2 (0 : Fin 1) d := funext fun a => Fin.ext (by
    match a with
    | ⟨0, _⟩ => show win0_6.index t (0 : Fin 2) * 1 + 1 * 0 = 0; omega
    | ⟨1, _⟩ => show win0_6.index t (1 : Fin 2) * 8 + 1 * d.val = d.val; omega)
  rw [h]
  exact Cert.Lib.RowSpread.asRow_apply _ _ 0 d
theorem bblk8 (c : Dev nD) (t : Fin cfg0.N) (d : Fin 1) :
    iblk m c 8 t (ix2 (0 : Fin 1) d) = m ((c : Thread nD τ).loc main_arg8) (ix1 d) := by
  have e := idx_facts t
  show V m c main_v8 (((cfg0.win 8).blk t).view.emb (ix2 (0 : Fin 1) d)) = _
  rw [V_v8]
  have h : ((cfg0.win 8).blk t).view.emb (ix2 (0 : Fin 1) d) = ix2 (0 : Fin 1) d := funext fun a => Fin.ext (by
    match a with
    | ⟨0, _⟩ => show win0_8.index t (0 : Fin 2) * 1 + 1 * 0 = 0; omega
    | ⟨1, _⟩ => show win0_8.index t (1 : Fin 2) * 1 + 1 * d.val = d.val; omega)
  rw [h]
  exact Cert.Lib.RowSpread.asRow_apply _ _ 0 d

/-- The weights of the arguments on core `c`. -/
def W (c : Dev nD) : Weights :=
  weightsOf (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))

/-- At every point the body's weights are the arguments'. -/
theorem weights_eq (c : Dev nD) (t : Fin cfg0.N) :
    weightsOfBlocks (iblk m c 1 t) (iblk m c 2 t) (iblk m c 3 t) (iblk m c 4 t) (iblk m c 5 t) (iblk m c 6 t)
      (iblk m c 7 t) (iblk m c 8 t) = W m c := by
  unfold W weightsOfBlocks weightsOf
  rw [Weights.mk.injEq]
  exact ⟨funext fun k => funext fun d => wblk1 m c t k d, funext fun d => bblk2 m c t d,
    funext fun k => funext fun d => wblk3 m c t k d, funext fun d => bblk4 m c t d,
    funext fun k => funext fun d => wblk5 m c t k d, funext fun d => bblk6 m c t d,
    funext fun k => funext fun d => wblk7 m c t k d, funext fun d => bblk8 m c t d⟩

/-! ### From blocks to the array -/

/-- The result array of the call, `[64, 1, 2048]`: the pooled features of the arguments. -/
def G9 (c : Dev nD) : S64x1x2048.Idx → EReal :=
  fun i => pooled (W m c) (m ((c : Thread nD τ).loc main_arg0)) (i 0) (i 2)

/-- The block the body leaves at point `t`, read at an index, is `G9` read at that index of block `t`. -/
theorem block9_at (c : Dev nD) (t : Fin cfg0.N) (y : S1x1x2048.Idx) :
    out0_9 (F := Ideal) (iblk m c 0 t) (iblk m c 1 t) (iblk m c 2 t) (iblk m c 3 t) (iblk m c 4 t) (iblk m c 5 t)
        (iblk m c 6 t) (iblk m c 7 t) (iblk m c 8 t) y
      = G9 m c (((cfg0.win 9).blk t).view.emb y) := by
  have e := idx_facts t
  obtain ⟨u, v, q, rfl⟩ : ∃ (u : Fin 1) (v : Fin 1) (q : Fin 2048), y = ix3 u v q := ⟨y 0, y 1, y 2, eq_ix3 y⟩
  obtain rfl : u = 0 := Subsingleton.elim _ _
  obtain rfl : v = 0 := Subsingleton.elim _ _
  have he : ((cfg0.win 9).blk t).view.emb (ix3 (0 : Fin 1) (0 : Fin 1) q) = ix3 (pt t) (0 : Fin 1) q :=
    funext fun a => Fin.ext (by
      match a with
      | ⟨0, _⟩ => show win0_9.index t (0 : Fin 3) * 1 + 1 * 0 = t.val; omega
      | ⟨1, _⟩ => show win0_9.index t (1 : Fin 3) * 1 + 1 * 0 = 0; omega
      | ⟨2, _⟩ => show win0_9.index t (2 : Fin 3) * 2048 + 1 * q.val = q.val; omega)
  rw [he]
  refine (Cert.Attn.Block.out_block (iblk m c 0 t) (iblk m c 1 t) (iblk m c 2 t) (iblk m c 3 t) (iblk m c 4 t) (iblk m c 5 t)
    (iblk m c 6 t) (iblk m c 7 t) (iblk m c 8 t) q).trans ?_
  rw [weights_eq m c t]
  show _ = pooled (W m c) (m ((c : Thread nD τ).loc main_arg0)) (pt t) q
  unfold pooled
  refine congrArg₂ Ideal.div ?_ ?_
  · exact Finset.sum_congr rfl fun r _ => by rw [row_eq m c t r, blk0 m c t r q]
  · exact Finset.sum_congr rfl fun r _ => by rw [row_eq m c t r]

/-- What point `t` writes back is block `t` of `G9`. -/
theorem flushed_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext y
  exact block9_at m c t y

/-- An index of the result is in point `t`'s block iff each coordinate is in the block's range. -/
theorem mem_blk9 (t : Fin cfg0.N) (i : S64x1x2048.Idx) :
    i ∈ ((cfg0.win 9).blk t).view.set ↔ ∀ a : Fin 3, win0_9.index t a * S1x1x2048.size a ≤ (i a).val
      ∧ (i a).val < win0_9.index t a * S1x1x2048.size a + S1x1x2048.size a := by
  show i ∈ ((View.whole main_v9).slice (win0_9.rect t)).set ↔ _
  rw [View.set_slice_whole, Rect.mem_set_unit]
  exact Iff.rfl

/-- Every index of the result is in the block of the point of its batch entry. -/
theorem cover9 (i : S64x1x2048.Idx) : ∃ t : Fin cfg0.N, (cfg0.win 9).flush t = true ∧ i ∈ ((cfg0.win 9).blk t).view.set := by
  have h0 : (i 0).val < 64 := (i 0).isLt
  have h1 : (i 1).val < 1 := (i 1).isLt
  have h2 : (i 2).val < 2048 := (i 2).isLt
  have eN : cfg0.N = 64 := N_0
  obtain ⟨t, ht⟩ : ∃ t : Fin cfg0.N, t.val = (i 0).val := ⟨⟨(i 0).val, by omega⟩, rfl⟩
  refine ⟨t, flush0_9 t, ?_⟩
  rw [mem_blk9]
  have e := idx_facts t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 2048 ≤ (i 2).val ∧ (i 2).val < win0_9.index t (2 : Fin 3) * 2048 + 2048; omega

/-- The call's result array after the run. -/
theorem final9 (c : Dev nD) : (dats m 0 c).arrAt 9 cfg0.N = G9 m c :=
  (dats m 0 c).arrAt_eq_of_cover 9 (G9 m c) (fun t _ => flushed_eq m c t) cover9

/-! ### The reshape after the call, and the run -/

/-- The program's result `[64, 2048]`: the pooled features of the arguments. -/
def Gout (c : Dev nD) : S64x2048.Idx → EReal :=
  fun i => pooled (W m c) (m ((c : Thread nD τ).loc main_arg0)) (i 0) (i 1)

/-- After the call the reshape drops the result's unit axis. -/
theorem tail_eq (c : Dev nD) : Pipeline.afterTail₀ cfgs (dats m) 0 (V0 m) [hostOps1] c main_v10 = Gout m c := by
  unfold Pipeline.afterTail₀
  show StableHlo.after hostOps1 _ (Proc.devRef .tc main_v10) = _
  after_results
  funext i
  show shapeCast S64x2048 (Pipeline.withArrays (cfgs 0).spec c (V0 m c) (fun w => (dats m 0 c).arrAt w (cfgs 0).N)
      (Proc.devRef .tc main_v9)) shapeCasts_S64x1x2048_S64x2048 i = _
  rw [show Pipeline.withArrays (cfgs 0).spec c (V0 m c) (fun w => (dats m 0 c).arrAt w (cfgs 0).N) (Proc.devRef .tc main_v9)
      = G9 m c from (Pipeline.withArrays_arr spec0 launch0.win.arr_inj c _ _ 9).trans (final9 m c)]
  obtain ⟨b, q, rfl⟩ : ∃ (b : Fin 64) (q : Fin 2048), i = ix2 b q := ⟨i 0, i 1, eq_ix2 i⟩
  refine (shapeCast_apply (s := S64x1x2048) (t := S64x2048) (G9 m c) _ (ix2 b q) (ix3 b (0 : Fin 1) q) ?_).trans rfl
  rw [Shape.rowMajor_val_three, Shape.rowMajor_val_two]
  show (b.val * 1 + 0) * 2048 + q.val = b.val * 2048 + q.val
  omega

/-- The kernel's run: every weakly fair execution ends with the result at the pooled features of the arguments and
    the arguments unchanged. -/
theorem run : θ_run defs (onTc (τ := τ) (main (F := Ideal))) ⟨m, fun _ => 0, ρ⟩ (fun r => ∀ c : Dev nD,
      r.2.mem ((c.tc : Thread nD τ).loc main_v10) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main (F := Ideal) m ρ)

end Cert.Attn.Kernel

end
-- ==== Proof.lean ====
/-
  The kernel against its jnp reference, over the extended reals.

  Both programs compute, for each of the 64 batch entries and each of the 2048 channels, an attention-weighted
  mean of the entry's 196 = 14 · 14 pixels: a pixel's channel vector goes through three affine layers, each followed
  by `max · 0`, and a fourth affine layer to one logit, and the logistic function of the logit is the pixel's weight
  (Proof/Spec.lean). The kernel reads one batch entry per grid point as a `[196, 2048]` slab and leaves the
  quotient of the weighted sum by the sum of the weights (Proof/KernelBlock.lean: the body's block at an index;
  Proof/KernelValue.lean: from the blocks to the result array and through the reshapes around the call). The
  reference takes the two sums over the image rows and columns, divides each by 196 and then takes their quotient
  (Proof/RefValue.lean). Changes of float format are the identity on extended reals and the matrix products and
  sums are exact, so the two results differ only by that common factor 196 and the order of the sums; the
  precondition makes every input entry a real number (Proof/Finite.lean), every weight is then a positive real,
  the sum of the weights is a nonzero real, and the factor cancels (Proof/Algebra.lean). The idealized kernel is
  the kernel's own text read over the extended reals: no operation was rewritten, so there is nothing to preserve.
-/
import proofs.«151469_j27625229648173_1_alg».proof.Defs
import proofs.«151469_j27625229648173_1_alg».proof.Proof.Gen.Kernel
import proofs.«151469_j27625229648173_1_alg».proof.Proof.Gen.Kernel.Skeleton
import proofs.«151469_j27625229648173_1_alg».proof.Proof.Gen.Kernel.Launch
import proofs.«151469_j27625229648173_1_alg».proof.Proof.Gen.Kernel.Points
import proofs.«151469_j27625229648173_1_alg».proof.Proof.Gen.Kernel.Frame
import proofs.«151469_j27625229648173_1_alg».proof.Proof.Gen.KernelIdeal
import proofs.«151469_j27625229648173_1_alg».proof.Proof.Gen.KernelIdeal.Skeleton
import proofs.«151469_j27625229648173_1_alg».proof.Proof.Gen.KernelIdeal.Launch
import proofs.«151469_j27625229648173_1_alg».proof.Proof.Gen.KernelIdeal.Points
import proofs.«151469_j27625229648173_1_alg».proof.Proof.Gen.KernelIdeal.Frame
import proofs.«151469_j27625229648173_1_alg».proof.Proof.Gen.ReferenceIdeal
import proofs.«151469_j27625229648173_1_alg».proof.Proof.Gen.Pre_finite_inputs
import proofs.«151469_j27625229648173_1_alg».proof.Proof.Gen.ReferenceIdeal.Run
import proofs.«151469_j27625229648173_1_alg».proof.Proof.Gen.ReferenceIdeal.Read
import proofs.«151469_j27625229648173_1_alg».proof.Proof.Spec
import proofs.«151469_j27625229648173_1_alg».proof.Proof.Algebra
import proofs.«151469_j27625229648173_1_alg».proof.Proof.Finite
import proofs.«151469_j27625229648173_1_alg».proof.Proof.RefValue
import proofs.«151469_j27625229648173_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended-real reading. -/
theorem preserves : Cert.preserves_Kernel_KernelIdeal := trivial

/-- From arguments that agree and are real, both programs end with the pooled features: the kernel's run leaves
    `pooled`, the reference's `pooledMean`, and with real weights and a real input these are one function. -/
theorem algebraic : Cert.algebraic_KernelIdeal_ReferenceIdeal := by
  intro m ρ m' ρ' hpre hagree
  refine ⟨fun c => Cert.Attn.Kernel.Gout m c, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨r0, r1, r2, r3, r4, r5, r6, r7, r8⟩ := Cert.Attn.Finite.allReal_of_pre _ _ _ _ _ _ _ _ _ (hpre c)
  rw [Cert.ReferenceIdeal.Read.val_main_v34_eq, e0, e1, e2, e3, e4, e5, e6, e7, e8]
  funext i
  refine (Cert.Attn.Ref.ref_value _ _ _ _ _ _ _ _ _ i).trans ?_
  exact Cert.Attn.pooledMean_eq_pooled (Cert.Attn.weightsOf_real r1 r2 r3 r4 r5 r6 r7 r8) r0 (i 0) (i 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
